-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x576 : Shape := ⟨3, ![8, 4096, 576]⟩
abbrev S_ : Shape := ⟨0, ![]⟩

class Facts : Prop where
  bcast_S_S8x4096x576 : S_.BroadcastsInDim S8x4096x576 (![] : Fin 0 → Fin S8x4096x576.rank)
  reducesTo_S8x4096x576_S_d0_1_2 : S8x4096x576.ReducesTo [0, 1, 2] S_
  h_S_ : 0 < S_.numel

variable [Facts]

def fn {F : FTy → Type} [FloatOps F] (main_arg0 : FVec F S8x4096x576 .f32) : IVec S_ 1 :=
  let main_v0 : FVec F S8x4096x576 .f32 := Host.absf main_arg0
  let main_cst : FVec F S_ .f32 := constant S_ .f32 0x7F800000#32
  let main_v1 : FVec F S8x4096x576 .f32 := broadcastInDim S8x4096x576 ![] bcast_S_S8x4096x576 main_cst
  let main_v2 : IVec S8x4096x576 1 := cmpf .olt main_v0 main_v1
  let main_c : IVec S_ 1 := constantI S_ 1 1#1
  let main_v3 : IVec S_ 1 := (fun x v => Host.reduce IntOp.andi x v reducesTo_S8x4096x576_S_d0_1_2 h_S_) main_v2 main_c
  main_v3
-- ==== Kernel.lean ====
abbrev S8x4096x576 : Shape := ⟨3, ![8, 4096, 576]⟩
abbrev S8x4096x192 : Shape := ⟨3, ![8, 4096, 192]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S1x1024x192 : Shape := ⟨3, ![1, 1024, 192]⟩
abbrev S1x4096x192 : Shape := ⟨3, ![1, 4096, 192]⟩
abbrev S1x1024x1 : Shape := ⟨3, ![1, 1024, 1]⟩
abbrev S1x1x512 : Shape := ⟨3, ![1, 1, 512]⟩
abbrev S1024x1 : Shape := ⟨2, ![1024, 1]⟩
abbrev S1024x192 : Shape := ⟨2, ![1024, 192]⟩
abbrev S1x512x192 : Shape := ⟨3, ![1, 512, 192]⟩
abbrev S512x192 : Shape := ⟨2, ![512, 192]⟩
abbrev S1x512 : Shape := ⟨2, ![1, 512]⟩
abbrev S1024x512 : Shape := ⟨2, ![1024, 512]⟩
abbrev S1024 : Shape := ⟨1, ![1024]⟩

abbrev nBuf : Space → Nat
  | .hbm => 29
  | .vmem => 14
  | .smem => 0
  | _ => 0

abbrev bufTy : (tb : Table) → Fin (tcTables nBuf tb) → BufTy
  | .hbm, ⟨0, _⟩ => ⟨S8x4096x576, .f32⟩
  | .hbm, ⟨1, _⟩ => ⟨S8x4096x192, .f32⟩
  | .hbm, ⟨2, _⟩ => ⟨S_, .f32⟩
  | .hbm, ⟨3, _⟩ => ⟨S8x4096x192, .f32⟩
  | .hbm, ⟨4, _⟩ => ⟨S8x4096x192, .f32⟩
  | .hbm, ⟨5, _⟩ => ⟨S8x4096x192, .f32⟩
  | .hbm, ⟨6, _⟩ => ⟨S_, .f32⟩
  | .hbm, ⟨7, _⟩ => ⟨S8x4096x192, .f32⟩
  | .hbm, ⟨8, _⟩ => ⟨S8x4096x192, .f32⟩
  | .hbm, ⟨9, _⟩ => ⟨S8x4096x192, .f32⟩
  | .hbm, ⟨10, _⟩ => ⟨S8x4096x192, .bf16⟩
  | .hbm, ⟨11, _⟩ => ⟨S8x4096x192, .bf16⟩
  | .hbm, ⟨12, _⟩ => ⟨S8x4096x192, .bf16⟩
  | .hbm, ⟨13, _⟩ => ⟨S_, .f32⟩
  | .hbm, ⟨14, _⟩ => ⟨S8x4096x192, .f32⟩
  | .hbm, ⟨15, _⟩ => ⟨S8x4096x192, .f32⟩
  | .hbm, ⟨16, _⟩ => ⟨S8x4096x192, .bf16⟩
  | .hbm, ⟨17, _⟩ => ⟨S8x4096x192, .f32⟩
  | .hbm, ⟨18, _⟩ => ⟨S8x4096x192, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S8x4096x192, .f32⟩
  | .hbm, ⟨23, _⟩ => ⟨S8x4096x192, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S8x1x4096, .f32⟩
  | .hbm, ⟨28, _⟩ => ⟨S8x4096x192, .f32⟩
  | .local _ .vmem, ⟨0, _⟩ => ⟨S1x1024x192, .bf16⟩
  | .local _ .vmem, ⟨1, _⟩ => ⟨S1x1024x192, .bf16⟩
  | .local _ .vmem, ⟨2, _⟩ => ⟨S1x4096x192, .bf16⟩
  | .local _ .vmem, ⟨3, _⟩ => ⟨S1x4096x192, .bf16⟩
  | .local _ .vmem, ⟨4, _⟩ => ⟨S1x4096x192, .bf16⟩
  | .local _ .vmem, ⟨5, _⟩ => ⟨S1x4096x192, .bf16⟩
  | .local _ .vmem, ⟨6, _⟩ => ⟨S1x1024x1, .f32⟩
  | .local _ .vmem, ⟨7, _⟩ => ⟨S1x1024x1, .f32⟩
  | .local _ .vmem, ⟨8, _⟩ => ⟨S1x1x512, .f32⟩
  | .local _ .vmem, ⟨9, _⟩ => ⟨S1x1x512, .f32⟩
  | .local _ .vmem, ⟨10, _⟩ => ⟨S1x1024x192, .f32⟩
  | .local _ .vmem, ⟨11, _⟩ => ⟨S1x1024x192, .f32⟩
  | .local _ .vmem, ⟨12, _⟩ => ⟨S1024x1, .f32⟩
  | .local _ .vmem, ⟨13, _⟩ => ⟨S1024x192, .f32⟩
  | _, _ => ⟨S8x4096x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let arg2 : BitVec 32 := BitVec.ofNat 32 (i 2).val
  let c512_i32 : BitVec 32 := 512#32
  let v3 : BitVec 32 := Scalar.muli arg2 c512_i32
  v3
def k0_off1 (i : grid0.Coords) : Fin 3 → Nat :=
  let c0 : Index := 0#32
  let arg2 : BitVec 32 := BitVec.ofNat 32 (i 2).val
  let c512_i32 : BitVec 32 := 512#32
  let v3 : BitVec 32 := Scalar.muli arg2 c512_i32
  let v4 : BitVec 32 := v3
  let v5 : Index := Scalar.indexCast v4
  let c0_1 : Index := 0#32
  ![0, v5.toNat, 0]
def k0_cond2 (i : grid0.Coords) : BitVec 1 :=
  let arg2 : BitVec 32 := BitVec.ofNat 32 (i 2).val
  let c7_i32 : BitVec 32 := 7#32
  let v42 : BitVec 1 := Scalar.cmpi .eq arg2 c7_i32
  let v43 : BitVec 32 := Scalar.extui v42
  let c0_i32_25 : BitVec 32 := 0#32
  let v44 : BitVec 1 := Scalar.cmpi .ne v43 c0_i32_25
  v44

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x4096x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1024x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  slices_S8x4096x576_S8x4096x192_0_0_0 : S8x4096x576.Slices ![0, 0, 0] S8x4096x192
  bcast_S_S8x4096x192 : S_.BroadcastsInDim S8x4096x192 (![] : Fin 0 → Fin S8x4096x192.rank)
  slices_S8x4096x576_S8x4096x192_0_0_192 : S8x4096x576.Slices ![0, 0, 192] S8x4096x192
  slices_S8x4096x576_S8x4096x192_0_0_384 : S8x4096x576.Slices ![0, 0, 384] S8x4096x192
  bitsLt_bf16_f32 : FTy.bits .bf16 < FTy.bits .f32
  reducesTo_S8x4096x192_S8x4096_d2 : S8x4096x192.ReducesTo [2] S8x4096
  h_S_ : 0 < S_.numel
  bcast_S8x4096_S8x4096x1_0_1 : S8x4096.BroadcastsInDim S8x4096x1 (![0, 1] : Fin 2 → Fin S8x4096x1.rank)
  transposes_S8x4096x1_S8x1x4096_0_2_1 : S8x4096x1.Transposes [0, 2, 1] S8x1x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  h_S1x512x192 : 0 < S1x512x192.numel
  shapeCasts_S1x512x192_S512x192 : S1x512x192.ShapeCasts S512x192
  inb_S1x1024x192_S1x1024x192_0_0_0 : ∀ a, (![0, 0, 0] : Fin 3 → Nat) a + S1x1024x192.size a ≤ S1x1024x192.size a
  h_S1x1024x192 : 0 < S1x1024x192.numel
  shapeCasts_S1x1024x192_S1024x192 : S1x1024x192.ShapeCasts S1024x192
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1024x1_S1024x512 : S1024x1.Broadcasts S1024x512
  broadcasts_S1x512_S1024x512 : S1x512.Broadcasts S1024x512
  reduces_S1024x512_S1024 : S1024x512.Reduces [1] S1024
  shapeCasts_S1024_S1024x1 : S1024.ShapeCasts S1024x1
  broadcasts_S1024x1_S1024x192 : S1024x1.Broadcasts S1024x192
  shapeCasts_S1024x192_S1x1024x192 : S1024x192.ShapeCasts S1x1024x192
  dot_S1024x192_S512x192_S1024x512_1_1_0_0_n_n_wf : DotDims.WF S1024x192 S512x192 S1024x512 [1] [1] [0] [0] [] []
  dot_S1024x512_S512x192_S1024x192_1_0_0_1_n_n_wf : DotDims.WF S1024x512 S512x192 S1024x192 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x192.size a ≤ S1x4096x192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x192.size a ≤ S8x4096x192.size a
  hwx0_0 : ∀ i : grid0.Coords, EltTy.bits .bf16 = 32 ∨ (Rect.block (s := S8x4096x192) S1x1024x192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x192.size a ≤ S8x4096x192.size a
  hwx0_1 : ∀ i : grid0.Coords, EltTy.bits .bf16 = 32 ∨ (Rect.block (s := S8x4096x192) S1x4096x192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x192.size a ≤ S8x4096x192.size a
  hwx0_2 : ∀ i : grid0.Coords, EltTy.bits .bf16 = 32 ∨ (Rect.block (s := S8x4096x192) S1x4096x192.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S8x4096x1.size a
  hwx0_3 : ∀ i : grid0.Coords, EltTy.bits .f32 = 32 ∨ (Rect.block (s := S8x4096x1) S1x1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S8x1x4096.size a
  hwx0_4 : ∀ i : grid0.Coords, EltTy.bits .f32 = 32 ∨ (Rect.block (s := S8x1x4096) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x192.size a ≤ S8x4096x192.size a
  hwx0_5 : ∀ i : grid0.Coords, EltTy.bits .f32 = 32 ∨ (Rect.block (s := S8x4096x192) S1x1024x192.size (cc0_transform_5 i) (hinb0_5 i)).WholeWords (EltTy.packing .f32)

variable [Facts₀]

def dot_S1024x192_S512x192_S1024x512_1_1_0_0_n_n : DotDims S1024x192 S512x192 S1024x512 where
  lhsContracting := [1]
  rhsContracting := [1]
  lhsNonContracting := [0]
  rhsNonContracting := [0]
  lhsBatch := []
  rhsBatch := []
  wf := dot_S1024x192_S512x192_S1024x512_1_1_0_0_n_n_wf
def dot_S1024x512_S512x192_S1024x192_1_0_0_1_n_n : DotDims S1024x512 S512x192 S1024x192 where
  lhsContracting := [1]
  rhsContracting := [0]
  lhsNonContracting := [0]
  rhsNonContracting := [1]
  lhsBatch := []
  rhsBatch := []
  wf := dot_S1024x512_S512x192_S1024x192_1_0_0_1_n_n_wf

abbrev win0_0 : Pipeline.Window sig grid0 :=
  Pipeline.Window.ofSpec (Memref.whole main_v12) S1x1024x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x4096x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x4096x192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x1024x192.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x4096x576 : Shape := ⟨3, ![8, 4096, 576]⟩
abbrev S8x4096x192 : Shape := ⟨3, ![8, 4096, 192]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S8x4096x4096 : Shape := ⟨3, ![8, 4096, 4096]⟩

abbrev nBuf : Space → Nat
  | .hbm => 60
  | .vmem => 0
  | .smem => 0
  | _ => 0

abbrev bufTy : (tb : Table) → Fin (tcTables nBuf tb) → BufTy
  | .hbm, ⟨0, _⟩ => ⟨S8x4096x576, .f32⟩
  | .hbm, ⟨1, _⟩ => ⟨S8x4096x192, .f32⟩
  | .hbm, ⟨2, _⟩ => ⟨S8x4096x192, .f32⟩
  | .hbm, ⟨3, _⟩ => ⟨S8x4096x192, .f32⟩
  | .hbm, ⟨4, _⟩ => ⟨S_, .f32⟩
  | .hbm, ⟨5, _⟩ => ⟨S8x4096x192, .f32⟩
  | .hbm, ⟨6, _⟩ => ⟨S8x4096x192, .f32⟩
  | .hbm, ⟨7, _⟩ => ⟨S_, .f32⟩
  | .hbm, ⟨8, _⟩ => ⟨S8x4096x192, .f32⟩
  | .hbm, ⟨9, _⟩ => ⟨S8x4096x192, .f32⟩
  | .hbm, ⟨10, _⟩ => ⟨S8x4096x192, .f32⟩
  | .hbm, ⟨11, _⟩ => ⟨S_, .f32⟩
  | .hbm, ⟨12, _⟩ => ⟨S8x4096, .f32⟩
  | .hbm, ⟨13, _⟩ => ⟨S8x4096x192, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S8x1x4096, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096x4096, .f32⟩
  | .hbm, ⟨28, _⟩ => ⟨S8x4096x4096, .f32⟩
  | .hbm, ⟨29, _⟩ => ⟨S_, .f32⟩
  | .hbm, ⟨30, _⟩ => ⟨S8x4096x4096, .f32⟩
  | .hbm, ⟨31, _⟩ => ⟨S8x4096x4096, .i1⟩
  | .hbm, ⟨32, _⟩ => ⟨S_, .f32⟩
  | .hbm, ⟨33, _⟩ => ⟨S8x4096x4096, .f32⟩
  | .hbm, ⟨34, _⟩ => ⟨S8x4096x4096, .i1⟩
  | .hbm, ⟨35, _⟩ => ⟨S_, .f32⟩
  | .hbm, ⟨36, _⟩ => ⟨S_, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S_, .f32⟩
  | .hbm, ⟨42, _⟩ => ⟨S8x4096x4096, .f32⟩
  | .hbm, ⟨43, _⟩ => ⟨S8x4096x4096, .f32⟩
  | .hbm, ⟨44, _⟩ => ⟨S8x4096x4096, .f32⟩
  | .hbm, ⟨45, _⟩ => ⟨S_, .f32⟩
  | .hbm, ⟨46, _⟩ => ⟨S8x4096, .f32⟩
  | .hbm, ⟨47, _⟩ => ⟨S_, .f32⟩
  | .hbm, ⟨48, _⟩ => ⟨S8x4096, .f32⟩
  | .hbm, ⟨49, _⟩ => ⟨S8x4096, .f32⟩
  | .hbm, ⟨50, _⟩ => ⟨S8x4096x1, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S_, .f32⟩
  | .hbm, ⟨55, _⟩ => ⟨S8x4096, .f32⟩
  | .hbm, ⟨56, _⟩ => ⟨S8x4096x1, .f32⟩
  | .hbm, ⟨57, _⟩ => ⟨S8x4096x4096, .f32⟩
  | .hbm, ⟨58, _⟩ => ⟨S8x4096x4096, .f32⟩
  | .hbm, ⟨59, _⟩ => ⟨S8x4096x192, .f32⟩
  | _, _ => ⟨S8x4096x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_v21 : Ref sig .tc := ⟨.hbm, 28, rfl⟩
abbrev main_cst_5 : Ref sig .tc := ⟨.hbm, 29, rfl⟩
abbrev main_v22 : Ref sig .tc := ⟨.hbm, 30, rfl⟩
abbrev main_v23 : Ref sig .tc := ⟨.hbm, 31, rfl⟩
abbrev main_cst_6 : Ref sig .tc := ⟨.hbm, 32, rfl⟩
abbrev main_v24 : Ref sig .tc := ⟨.hbm, 33, rfl⟩
abbrev main_v25 : Ref sig .tc := ⟨.hbm, 34, rfl⟩
abbrev main_cst_7 : Ref sig .tc := ⟨.hbm, 35, rfl⟩
abbrev main_call0_v0 : Ref sig .tc := ⟨.hbm, 36, rfl⟩
abbrev main_call0_v1 : Ref sig .tc := ⟨.hbm, 37, rfl⟩
abbrev main_v26 : Ref sig .tc := ⟨.hbm, 38, rfl⟩
abbrev main_v27 : Ref sig .tc := ⟨.hbm, 39, rfl⟩
abbrev main_cst_8 : Ref sig .tc := ⟨.hbm, 40, rfl⟩
abbrev main_call1_v0 : Ref sig .tc := ⟨.hbm, 41, rfl⟩
abbrev main_call1_v1 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]

class Facts₀ : Prop where
  slices_S8x4096x576_S8x4096x192_0_0_0 : S8x4096x576.Slices ![0, 0, 0] S8x4096x192
  slices_S8x4096x576_S8x4096x192_0_0_192 : S8x4096x576.Slices ![0, 0, 192] S8x4096x192
  slices_S8x4096x576_S8x4096x192_0_0_384 : S8x4096x576.Slices ![0, 0, 384] S8x4096x192
  bcast_S_S8x4096x192 : S_.BroadcastsInDim S8x4096x192 (![] : Fin 0 → Fin S8x4096x192.rank)
  reducesTo_S8x4096x192_S8x4096_d2 : S8x4096x192.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  bcast_S_S8x4096 : S_.BroadcastsInDim S8x4096 (![] : Fin 0 → Fin S8x4096.rank)
  dot_S8x4096x192_S8x4096x192_S8x4096x4096_2_2_1_1_0_0_wf : DotDims.WF S8x4096x192 S8x4096x192 S8x4096x4096 [2] [2] [1] [1] [0] [0]
  dot_S8x4096x4096_S8x4096x192_S8x4096x192_2_1_1_2_0_0_wf : DotDims.WF S8x4096x4096 S8x4096x192 S8x4096x192 [2] [1] [1] [2] [0] [0]

variable [Facts₀]

def dot_S8x4096x192_S8x4096x192_S8x4096x4096_2_2_1_1_0_0 : DotDims S8x4096x192 S8x4096x192 S8x4096x4096 where
  lhsContracting := [2]
  rhsContracting := [2]
  lhsNonContracting := [1]
  rhsNonContracting := [1]
  lhsBatch := [0]
  rhsBatch := [0]
  wf := dot_S8x4096x192_S8x4096x192_S8x4096x4096_2_2_1_1_0_0_wf
def dot_S8x4096x4096_S8x4096x192_S8x4096x192_2_1_1_2_0_0 : DotDims S8x4096x4096 S8x4096x192 S8x4096x192 where
  lhsContracting := [2]
  rhsContracting := [1]
  lhsNonContracting := [1]
  rhsNonContracting := [2]
  lhsBatch := [0]
  rhsBatch := [0]
  wf := dot_S8x4096x4096_S8x4096x192_S8x4096x192_2_1_1_2_0_0_wf

class Facts : Prop extends Facts₀ where

variable [Facts]
-- ==== Proof.KCoords.lean ====
/-
  The grid of the attention kernel is [8, 4, 8]: batch, query tile of 1024 tokens, key tile of 512 tokens.
  Point number `t` (row-major) has batch `t / 32`, query tile `(t / 8) % 4` and key tile `t % 8`.  This module
  names the batch of a point, the token of a query row of its tile and the token of a key row of its tile, and
  records the coordinates of a point and the row offset the body computes from the key tile.
-/
import proofs.«429850_j89799176225591_3_alg».proof.Proof.Gen.KernelIdeal.Value

set_option maxRecDepth 16384

noncomputable section

namespace Cert.KernelIdeal.Acc

open Cert.KernelIdeal Cert.KernelIdeal.Gen
open Idealize.ShloMosaic Idealize.ShloMosaic.TcCoe Idealize.SL.Sem

theorem N256 : cfg0.N = 256 := N_0

/-- The batch of point `t`. -/
def bOf (t : Fin cfg0.N) : Fin 8 := ⟨t.val / 32, by have h := lt_of_lt_of_eq t.isLt N256; omega⟩

/-- The token of query row `r` of point `t`'s tile. -/
def tOf (t : Fin cfg0.N) (r : Fin 1024) : Fin 4096 :=
  ⟨(t.val / 8 % 4) * 1024 + r.val, by have h := r.isLt; omega⟩

/-- The token of key row `j` of point `t`'s tile. -/
def sOf (t : Fin cfg0.N) (j : Fin 512) : Fin 4096 :=
  ⟨(t.val % 8) * 512 + j.val, by have h := j.isLt; omega⟩

/-- The coordinates of point `t`. -/
theorem coords_val : ∀ t : Fin cfg0.N,
    (grid0.coords t 0).val = t.val / 32 ∧ (grid0.coords t 1).val = t.val / 8 % 4 ∧ (grid0.coords t 2).val = t.val % 8 :=
  (by decide +kernel : ∀ t : Fin grid0.N,
    (grid0.coords t 0).val = t.val / 32 ∧ (grid0.coords t 1).val = t.val / 8 % 4 ∧ (grid0.coords t 2).val = t.val % 8)

/-- The row offset the body computes for its slices of the resident key and value blocks: 512 times the key tile. -/
theorem off_val : ∀ t : Fin cfg0.N, k0_off1 (grid0.coords t) = ![0, (t.val % 8) * 512, 0] :=
  (by decide +kernel : ∀ t : Fin grid0.N, k0_off1 (grid0.coords t) = ![0, (t.val % 8) * 512, 0])

/-! ## The five input blocks of a point, named at their literal types -/

section Blocks

variable {F : FTy → Type} [FloatOps F]
variable (m : (ℓ : Loc nD τ sig) → Buf (Elt F) ℓ)

/-- The doubled scaled queries of the point's query tile. -/
abbrev qblk (c : Dev nD) (t : Fin cfg0.N) : Vec F S1x1024x192 .bf16 := iblk m c 0 t
/-- The scaled keys of the point's batch (all 4096 tokens). -/
abbrev kblk (c : Dev nD) (t : Fin cfg0.N) : Vec F S1x4096x192 .bf16 := iblk m c 1 t
/-- The value rows of the point's batch (all 4096 tokens). -/
abbrev vblk (c : Dev nD) (t : Fin cfg0.N) : Vec F S1x4096x192 .bf16 := iblk m c 2 t
/-- The squared norms of the queries of the point's query tile. -/
abbrev q2blk (c : Dev nD) (t : Fin cfg0.N) : Vec F S1x1024x1 .f32 := iblk m c 3 t
/-- The squared norms of the keys of the point's key tile. -/
abbrev k2blk (c : Dev nD) (t : Fin cfg0.N) : Vec F S1x1x512 .f32 := iblk m c 4 t

end Blocks

end Cert.KernelIdeal.Acc

end
-- ==== Proof.KPieces.lean ====
/-
  What each control case of the attention kernel's body leaves in the two scratch buffers it carries along the
  key-tile axis (the running row sums of the weights, the running weighted sums of the value rows) and, at the last key
  tile, in the output block — as the body's own payload terms of the point's input blocks and of what the point before
  left.  Generic in the float instance.
-/
import proofs.«429850_j89799176225591_3_alg».proof.Proof.Gen.KernelIdeal.Value
import Idealize.ShloMosaic.Lib.Pipeline.Value
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 512 rows of a batch's resident key (or value) block that the grid's third coordinate selects. -/
def slab (i : grid0.Coords) (x : Vec F S1x4096x192 .bf16) : Vec F S1x512x192 .bf16 :=
  View.ld x (Rect.unit (k0_off1 i) S1x512x192.size (k0_off1_inb i))

/-- The tile of weights of a point: the exponentials of the logits of the point's 1024 queries against its 512 keys. -/
def ptile (i : grid0.Coords) (x0 : Vec F S1x1024x192 .bf16) (x1 : Vec F S1x4096x192 .bf16) (x3 : Vec F S1x1024x1 .f32)
    (x4 : Vec F S1x1x512 .f32) : Vec F S1024x512 .f32 :=
  k0_pay7 (slab i x1) x0 x3 x4

/-- What a point leaves in the running row sums, over what it found there. -/
def lstep (i : grid0.Coords) (x0 : Vec F S1x1024x192 .bf16) (x1 : Vec F S1x4096x192 .bf16) (x3 : Vec F S1x1024x1 .f32)
    (x4 : Vec F S1x1x512 .f32) (acc : Vec F S1024x1 .f32) : Vec F S1024x1 .f32 :=
  k0_pay1 (k0_pay8 (slab i x1) x0 x3 x4 acc)

/-- What a point leaves in the running weighted sums of value rows, over what it found there. -/
def astep (i : grid0.Coords) (x0 : Vec F S1x1024x192 .bf16) (x1 x2 : Vec F S1x4096x192 .bf16) (x3 : Vec F S1x1024x1 .f32)
    (x4 : Vec F S1x1x512 .f32) (acc : Vec F S1024x192 .f32) : Vec F S1024x192 .f32 :=
  k0_pay2 (k0_pay6 (slab i x2)) (ptile i x0 x1 x3 x4) acc

theorem sout_A_0 (c : Dev nD) (i : grid0.Coords) (arg3 : Memref sig .tc .vmem S1x1024x192 .bf16) (harg3 : arg3.IsWhole) (arg4 : Memref sig .tc .vmem S1x4096x192 .bf16) (harg4 : arg4.IsWhole) (arg5 : Memref sig .tc .vmem S1x4096x192 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x192 .f32) (harg8 : arg8.IsWhole) (arg9 : Memref sig .tc .vmem S1024x1 .f32) (harg9 : arg9.IsWhole) (arg10 : Memref sig .tc .vmem S1024x192 .f32) (harg10 : arg10.IsWhole) (hc0 : cond0_0 i) (hc1 : ¬cond0_1 i) (x0 : Vec F S1x1024x192 .bf16) (x1 : Vec F S1x4096x192 .bf16) (x2 : Vec F S1x4096x192 .bf16) (x3 : Vec F S1x1024x1 .f32) (x4 : Vec F S1x1x512 .f32) :
    sout0_A_0 c i arg3 harg3 arg4 harg4 arg5 harg5 arg6 harg6 arg7 harg7 arg8 harg8 arg9 harg9 arg10 harg10 hc0 hc1 x0 x1 x2 x3 x4 = lstep i x0 x1 x3 x4 k0_pay4 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1) hz2, View.readCov_unit_zero (S := S1024x1) _ hz2]
  simp only [View.readAt_eq_ld, harg3.read_unread, harg4.read_unread, harg5.read_unread, harg6.read_unread, harg7.read_unread,
    View.ld_unit_zero (S := S1x1024x192) hz3, View.ld_unit_zero (S := S1x1024x1) hz3, View.ld_unit_zero (S := S1x1x512) hz3]
  rfl

theorem sout_A_1 (c : Dev nD) (i : grid0.Coords) (arg3 : Memref sig .tc .vmem S1x1024x192 .bf16) (harg3 : arg3.IsWhole) (arg4 : Memref sig .tc .vmem S1x4096x192 .bf16) (harg4 : arg4.IsWhole) (arg5 : Memref sig .tc .vmem S1x4096x192 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x192 .f32) (harg8 : arg8.IsWhole) (arg9 : Memref sig .tc .vmem S1024x1 .f32) (harg9 : arg9.IsWhole) (arg10 : Memref sig .tc .vmem S1024x192 .f32) (harg10 : arg10.IsWhole) (hc0 : cond0_0 i) (hc1 : ¬cond0_1 i) (x0 : Vec F S1x1024x192 .bf16) (x1 : Vec F S1x4096x192 .bf16) (x2 : Vec F S1x4096x192 .bf16) (x3 : Vec F S1x1024x1 .f32) (x4 : Vec F S1x1x512 .f32) :
    sout0_A_1 c i arg3 harg3 arg4 harg4 arg5 harg5 arg6 harg6 arg7 harg7 arg8 harg8 arg9 harg9 arg10 harg10 hc0 hc1 x0 x1 x2 x3 x4 = astep i x0 x1 x2 x3 x4 k0_pay5 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x192) hz2, View.readCov_unit_zero (S := S1024x192) _ hz2]
  simp only [View.readAt_eq_ld, harg3.read_unread, harg4.read_unread, harg5.read_unread, harg6.read_unread, harg7.read_unread,
    View.ld_unit_zero (S := S1x1024x192) hz3, View.ld_unit_zero (S := S1x1024x1) hz3, View.ld_unit_zero (S := S1x1x512) hz3]
  rfl

theorem sout_B_0 (c : Dev nD) (i : grid0.Coords) (arg3 : Memref sig .tc .vmem S1x1024x192 .bf16) (harg3 : arg3.IsWhole) (arg4 : Memref sig .tc .vmem S1x4096x192 .bf16) (harg4 : arg4.IsWhole) (arg5 : Memref sig .tc .vmem S1x4096x192 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x192 .f32) (harg8 : arg8.IsWhole) (arg9 : Memref sig .tc .vmem S1024x1 .f32) (harg9 : arg9.IsWhole) (arg10 : Memref sig .tc .vmem S1024x192 .f32) (harg10 : arg10.IsWhole) (hc0 : ¬cond0_0 i) (hc1 : ¬cond0_1 i) (x0 : Vec F S1x1024x192 .bf16) (x1 : Vec F S1x4096x192 .bf16) (x2 : Vec F S1x4096x192 .bf16) (x3 : Vec F S1x1024x1 .f32) (x4 : Vec F S1x1x512 .f32) (xs0 : Vec F S1024x1 .f32) (xs1 : Vec F S1024x192 .f32) :
    sout0_B_0 c i arg3 harg3 arg4 harg4 arg5 harg5 arg6 harg6 arg7 harg7 arg8 harg8 arg9 harg9 arg10 harg10 hc0 hc1 x0 x1 x2 x3 x4 xs0 xs1 = lstep i x0 x1 x3 x4 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz2]
  simp only [View.readAt_eq_ld, harg3.read_unread, harg4.read_unread, harg5.read_unread, harg6.read_unread, harg7.read_unread,
    harg9.read_unread, harg10.read_unread,
    View.ld_unit_zero (S := S1x1024x192) hz3, View.ld_unit_zero (S := S1x1024x1) hz3, View.ld_unit_zero (S := S1x1x512) hz3,
    View.ld_unit_zero (S := S1024x1) hz2, View.ld_unit_zero (S := S1024x192) hz2,
    View.readCov_unit_zero (S := S1024x1) _ hz2, View.readCov_unit_zero (S := S1024x192) _ hz2]
  rfl

theorem sout_B_1 (c : Dev nD) (i : grid0.Coords) (arg3 : Memref sig .tc .vmem S1x1024x192 .bf16) (harg3 : arg3.IsWhole) (arg4 : Memref sig .tc .vmem S1x4096x192 .bf16) (harg4 : arg4.IsWhole) (arg5 : Memref sig .tc .vmem S1x4096x192 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x192 .f32) (harg8 : arg8.IsWhole) (arg9 : Memref sig .tc .vmem S1024x1 .f32) (harg9 : arg9.IsWhole) (arg10 : Memref sig .tc .vmem S1024x192 .f32) (harg10 : arg10.IsWhole) (hc0 : ¬cond0_0 i) (hc1 : ¬cond0_1 i) (x0 : Vec F S1x1024x192 .bf16) (x1 : Vec F S1x4096x192 .bf16) (x2 : Vec F S1x4096x192 .bf16) (x3 : Vec F S1x1024x1 .f32) (x4 : Vec F S1x1x512 .f32) (xs0 : Vec F S1024x1 .f32) (xs1 : Vec F S1024x192 .f32) :
    sout0_B_1 c i arg3 harg3 arg4 harg4 arg5 harg5 arg6 harg6 arg7 harg7 arg8 harg8 arg9 harg9 arg10 harg10 hc0 hc1 x0 x1 x2 x3 x4 xs0 xs1 = astep i x0 x1 x2 x3 x4 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz2]
  simp only [View.readAt_eq_ld, harg3.read_unread, harg4.read_unread, harg5.read_unread, harg6.read_unread, harg7.read_unread,
    harg9.read_unread, harg10.read_unread,
    View.ld_unit_zero (S := S1x1024x192) hz3, View.ld_unit_zero (S := S1x1024x1) hz3, View.ld_unit_zero (S := S1x1x512) hz3,
    View.ld_unit_zero (S := S1024x1) hz2, View.ld_unit_zero (S := S1024x192) hz2,
    View.readCov_unit_zero (S := S1024x1) _ hz2, View.readCov_unit_zero (S := S1024x192) _ hz2]
  rfl

theorem sout_C_0 (c : Dev nD) (i : grid0.Coords) (arg3 : Memref sig .tc .vmem S1x1024x192 .bf16) (harg3 : arg3.IsWhole) (arg4 : Memref sig .tc .vmem S1x4096x192 .bf16) (harg4 : arg4.IsWhole) (arg5 : Memref sig .tc .vmem S1x4096x192 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x192 .f32) (harg8 : arg8.IsWhole) (arg9 : Memref sig .tc .vmem S1024x1 .f32) (harg9 : arg9.IsWhole) (arg10 : Memref sig .tc .vmem S1024x192 .f32) (harg10 : arg10.IsWhole) (hc0 : ¬cond0_0 i) (hc1 : cond0_1 i) (x0 : Vec F S1x1024x192 .bf16) (x1 : Vec F S1x4096x192 .bf16) (x2 : Vec F S1x4096x192 .bf16) (x3 : Vec F S1x1024x1 .f32) (x4 : Vec F S1x1x512 .f32) (xs0 : Vec F S1024x1 .f32) (xs1 : Vec F S1024x192 .f32) :
    sout0_C_0 c i arg3 harg3 arg4 harg4 arg5 harg5 arg6 harg6 arg7 harg7 arg8 harg8 arg9 harg9 arg10 harg10 hc0 hc1 x0 x1 x2 x3 x4 xs0 xs1 = lstep i x0 x1 x3 x4 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz2]
  simp only [View.readAt_eq_ld, harg3.read_unread, harg4.read_unread, harg5.read_unread, harg6.read_unread, harg7.read_unread,
    harg9.read_unread, harg10.read_unread,
    View.ld_unit_zero (S := S1x1024x192) hz3, View.ld_unit_zero (S := S1x1024x1) hz3, View.ld_unit_zero (S := S1x1x512) hz3,
    View.ld_unit_zero (S := S1024x1) hz2, View.ld_unit_zero (S := S1024x192) hz2,
    View.readCov_unit_zero (S := S1024x1) _ hz2, View.readCov_unit_zero (S := S1024x192) _ hz2]
  rfl

theorem sout_C_1 (c : Dev nD) (i : grid0.Coords) (arg3 : Memref sig .tc .vmem S1x1024x192 .bf16) (harg3 : arg3.IsWhole) (arg4 : Memref sig .tc .vmem S1x4096x192 .bf16) (harg4 : arg4.IsWhole) (arg5 : Memref sig .tc .vmem S1x4096x192 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x192 .f32) (harg8 : arg8.IsWhole) (arg9 : Memref sig .tc .vmem S1024x1 .f32) (harg9 : arg9.IsWhole) (arg10 : Memref sig .tc .vmem S1024x192 .f32) (harg10 : arg10.IsWhole) (hc0 : ¬cond0_0 i) (hc1 : cond0_1 i) (x0 : Vec F S1x1024x192 .bf16) (x1 : Vec F S1x4096x192 .bf16) (x2 : Vec F S1x4096x192 .bf16) (x3 : Vec F S1x1024x1 .f32) (x4 : Vec F S1x1x512 .f32) (xs0 : Vec F S1024x1 .f32) (xs1 : Vec F S1024x192 .f32) :
    sout0_C_1 c i arg3 harg3 arg4 harg4 arg5 harg5 arg6 harg6 arg7 harg7 arg8 harg8 arg9 harg9 arg10 harg10 hc0 hc1 x0 x1 x2 x3 x4 xs0 xs1 = astep i x0 x1 x2 x3 x4 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz2]
  simp only [View.readAt_eq_ld, harg3.read_unread, harg4.read_unread, harg5.read_unread, harg6.read_unread, harg7.read_unread,
    harg9.read_unread, harg10.read_unread,
    View.ld_unit_zero (S := S1x1024x192) hz3, View.ld_unit_zero (S := S1x1024x1) hz3, View.ld_unit_zero (S := S1x1x512) hz3,
    View.ld_unit_zero (S := S1024x1) hz2, View.ld_unit_zero (S := S1024x192) hz2,
    View.readCov_unit_zero (S := S1024x1) _ hz2, View.readCov_unit_zero (S := S1024x192) _ hz2]
  rfl

/-- At the last key tile the body also divides the weighted sums it has just updated by the row sums it has just updated. -/
theorem out_C_5 (c : Dev nD) (i : grid0.Coords) (arg3 : Memref sig .tc .vmem S1x1024x192 .bf16) (harg3 : arg3.IsWhole) (arg4 : Memref sig .tc .vmem S1x4096x192 .bf16) (harg4 : arg4.IsWhole) (arg5 : Memref sig .tc .vmem S1x4096x192 .bf16) (harg5 : arg5.IsWhole) (arg6 : Memref sig .tc .vmem S1x1024x1 .f32) (harg6 : arg6.IsWhole) (arg7 : Memref sig .tc .vmem S1x1x512 .f32) (harg7 : arg7.IsWhole) (arg8 : Memref sig .tc .vmem S1x1024x192 .f32) (harg8 : arg8.IsWhole) (arg9 : Memref sig .tc .vmem S1024x1 .f32) (harg9 : arg9.IsWhole) (arg10 : Memref sig .tc .vmem S1024x192 .f32) (harg10 : arg10.IsWhole) (hc0 : ¬cond0_0 i) (hc1 : cond0_1 i) (x0 : Vec F S1x1024x192 .bf16) (x1 : Vec F S1x4096x192 .bf16) (x2 : Vec F S1x4096x192 .bf16) (x3 : Vec F S1x1024x1 .f32) (x4 : Vec F S1x1x512 .f32) (xs0 : Vec F S1024x1 .f32) (xs1 : Vec F S1024x192 .f32) :
    out0_C_5 c i arg3 harg3 arg4 harg4 arg5 harg5 arg6 harg6 arg7 harg7 arg8 harg8 arg9 harg9 arg10 harg10 hc0 hc1 x0 x1 x2 x3 x4 xs0 xs1
      = k0_pay3 (astep i x0 x1 x2 x3 x4 xs1) (lstep i x0 x1 x3 x4 xs0) := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz3]
  simp only [View.readAt_eq_ld, harg3.read_unread, harg4.read_unread, harg5.read_unread, harg6.read_unread, harg7.read_unread,
    harg9.read_unread, harg10.read_unread,
    View.ld_unit_zero (S := S1x1024x192) hz3, View.ld_unit_zero (S := S1x1024x1) hz3, View.ld_unit_zero (S := S1x1x512) hz3,
    View.ld_unit_zero (S := S1024x1) hz2, View.ld_unit_zero (S := S1024x192) hz2,
    View.readCov_unit_zero (S := S1024x1) _ hz2, View.readCov_unit_zero (S := S1024x192) _ hz2]
  rfl

end Cert.KernelIdeal.Acc
end
-- ==== Proof.KPayIdx.lean ====
/-
  The payloads of the attention kernel's body read at an index, on the extended reals: the tile of weights
  (the exponential of minus the clamped distance), the update of the running row sums, the update of the running
  weighted sums of value rows (a matrix product of the weight tile with the value slab), the final quotient, and
  the two zero resets.
-/
import proofs.«429850_j89799176225591_3_alg».proof.Proof.KCoords
import proofs.«429850_j89799176225591_3_alg».proof.Proof.KPieces
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Acc

open Cert.KernelIdeal Cert.KernelIdeal.Gen
open Idealize.ShloMosaic Idealize.ShloMosaic.TcCoe Idealize.SL.Sem Idealize.ShloMosaic.ValueIdx

/-- An `[a]` array cast to `[a, 1]` reads, at `(i, u)`, the operand at `i`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential and the square root of a vector act entry by entry. -/
private theorem exp_apply {s : Shape} {φ : FTy} (a : FVec Ideal s φ) (i : s.Idx) : exp a i = Ideal.exp (a i) := rfl
private theorem sqrt_apply {s : Shape} {φ : FTy} (a : FVec Ideal s φ) (i : s.Idx) : sqrt a i = Ideal.sqrt (a i) := rfl

/-- Row `j` of the slab the body cuts out of a resident block at point `t` is row `sOf t j` of the block. -/
theorem slab_apply (t : Fin cfg0.N) (x : Vec Ideal S1x4096x192 .bf16) (j : Fin 512) (l : Fin 192) :
    slab (grid0.coords t) x (ix3 (0 : Fin 1) j l) = x (ix3 (0 : Fin 1) (sOf t j) l) := by
  unfold slab View.ld
  refine congrArg x (funext fun a => Fin.ext ?_)
  show (k0_off1 (grid0.coords t)) a + 1 * ((ix3 (0 : Fin 1) j l) a).val = ((ix3 (0 : Fin 1) (sOf t j) l) a).val
  rw [off_val t]
  match a with
  | ⟨0, _⟩ => rfl
  | ⟨1, _⟩ => show (t.val % 8) * 512 + 1 * j.val = (t.val % 8) * 512 + j.val; omega
  | ⟨2, _⟩ => show 0 + 1 * l.val = l.val; omega

/-! The first product contracts axis 1 of both operands. -/
private theorem qk_lhs_0 (i : S1024x512.Idx) (q : dot_S1024x192_S512x192_S1024x512_1_1_0_0_n_n.contr.Idx) :
    (dot_S1024x192_S512x192_S1024x512_1_1_0_0_n_n.lhsIdx i q 0).val = (i 0).val := by
  unfold DotDims.lhsIdx
  rw [dif_neg (show ¬(0 : Fin S1024x192.rank) ∈ dot_S1024x192_S512x192_S1024x512_1_1_0_0_n_n.lhsBatch by decide), dif_pos (show (0 : Fin S1024x192.rank) ∈ dot_S1024x192_S512x192_S1024x512_1_1_0_0_n_n.lhsNonContracting by decide)]
  rfl
private theorem qk_lhs_1 (i : S1024x512.Idx) (q : dot_S1024x192_S512x192_S1024x512_1_1_0_0_n_n.contr.Idx) :
    (dot_S1024x192_S512x192_S1024x512_1_1_0_0_n_n.lhsIdx i q 1).val = (q ⟨0, by decide⟩).val :=
  dot_S1024x192_S512x192_S1024x512_1_1_0_0_n_n.lhsIdx_val_of_single rfl i q
private theorem qk_rhs_0 (i : S1024x512.Idx) (q : dot_S1024x192_S512x192_S1024x512_1_1_0_0_n_n.contr.Idx) :
    (dot_S1024x192_S512x192_S1024x512_1_1_0_0_n_n.rhsIdx i q 0).val = (i 1).val := by
  unfold DotDims.rhsIdx
  rw [dif_neg (show ¬(0 : Fin S512x192.rank) ∈ dot_S1024x192_S512x192_S1024x512_1_1_0_0_n_n.rhsBatch by decide), dif_pos (show (0 : Fin S512x192.rank) ∈ dot_S1024x192_S512x192_S1024x512_1_1_0_0_n_n.rhsNonContracting by decide)]
  rfl
private theorem qk_rhs_1 (i : S1024x512.Idx) (q : dot_S1024x192_S512x192_S1024x512_1_1_0_0_n_n.contr.Idx) :
    (dot_S1024x192_S512x192_S1024x512_1_1_0_0_n_n.rhsIdx i q 1).val = (q ⟨0, by decide⟩).val :=
  dot_S1024x192_S512x192_S1024x512_1_1_0_0_n_n.rhsIdx_val_of_single rfl i q

/-- The product of the query tile with the key slab, into zeros: entry `(r, j)` is the inner product of query row `r` with key row `j`. -/
private theorem qk_apply (y0 : FVec Ideal S1024x192 .bf16) (y1 : FVec Ideal S512x192 .bf16) (r : Fin 1024) (j : Fin 512) :
    matmul dot_S1024x192_S512x192_S1024x512_1_1_0_0_n_n none y0 y1 (constant (F := Ideal) S1024x512 .f32 0x00000000#32) (ix2 r j)
      = ∑ l : Fin 192, y0 (ix2 r l) * y1 (ix2 j l) := by
  simp only [matmul]
  rw [Ideal.matmul_constant_zero_apply, ← Equiv.sum_comp (ValueIdx.contrEquiv1 dot_S1024x192_S512x192_S1024x512_1_1_0_0_n_n 192 rfl rfl).symm]
  refine Finset.sum_congr rfl fun k _ => ?_
  have hk := ValueIdx.contrEquiv1_symm_val dot_S1024x192_S512x192_S1024x512_1_1_0_0_n_n 192 rfl rfl k
  have el : dot_S1024x192_S512x192_S1024x512_1_1_0_0_n_n.lhsIdx (ix2 r j) ((ValueIdx.contrEquiv1 dot_S1024x192_S512x192_S1024x512_1_1_0_0_n_n 192 rfl rfl).symm k) = ix2 r k := funext fun a => Fin.ext (by
    match a with
    | ⟨0, _⟩ => exact qk_lhs_0 _ _
    | ⟨1, _⟩ => exact (qk_lhs_1 _ _).trans hk)
  have er : dot_S1024x192_S512x192_S1024x512_1_1_0_0_n_n.rhsIdx (ix2 r j) ((ValueIdx.contrEquiv1 dot_S1024x192_S512x192_S1024x512_1_1_0_0_n_n 192 rfl rfl).symm k) = ix2 j k := funext fun a => Fin.ext (by
    match a with
    | ⟨0, _⟩ => exact qk_rhs_0 _ _
    | ⟨1, _⟩ => exact (qk_rhs_1 _ _).trans hk)
  rw [el, er]

/-- The column of squared query norms spread over the tile. -/
private theorem q2_apply (x3 : Vec Ideal S1x1024x1 .f32) (r : Fin 1024) (j : Fin 512) :
    broadcastTo S1024x512 (shapeCast S1024x1 x3 shapeCasts_S1x1024x1_S1024x1) broadcasts_S1024x1_S1024x512 (ix2 r j)
      = x3 (ix3 (0 : Fin 1) r (0 : Fin 1)) :=
  (broadcastTo_a1_ab_apply _ _ r j).trans (shapeCast_1ab_ab_apply x3 _ r (0 : Fin 1))

/-- The row of squared key norms spread over the tile. -/
private theorem k2_apply (x4 : Vec Ideal S1x1x512 .f32) (r : Fin 1024) (j : Fin 512) :
    broadcastTo S1024x512 (shapeCast S1x512 x4 shapeCasts_S1x1x512_S1x512) broadcasts_S1x512_S1024x512 (ix2 r j)
      = x4 (ix3 (0 : Fin 1) (0 : Fin 1) j) :=
  (broadcastTo_1b_ab_apply _ _ r j).trans (shapeCast_1ab_ab_apply x4 _ (0 : Fin 1) j)

/-- The weight of query row `r` against key row `j` of the point's tiles. -/
theorem ptile_apply (t : Fin cfg0.N) (x0 : Vec Ideal S1x1024x192 .bf16) (x1 : Vec Ideal S1x4096x192 .bf16)
    (x3 : Vec Ideal S1x1024x1 .f32) (x4 : Vec Ideal S1x1x512 .f32) (r : Fin 1024) (j : Fin 512) :
    ptile (grid0.coords t) x0 x1 x3 x4 (ix2 r j)
      = Ideal.exp (0 - Ideal.sqrt (max ((x3 (ix3 (0 : Fin 1) r (0 : Fin 1)) + x4 (ix3 (0 : Fin 1) (0 : Fin 1) j))
          - ∑ l : Fin 192, x0 (ix3 (0 : Fin 1) r l) * x1 (ix3 (0 : Fin 1) (sOf t j) l)) 0)) := by
  unfold ptile k0_pay7
  rw [exp_apply, subf_apply, broadcast_apply, sqrt_apply, maximumf_apply, subf_apply, addf_apply, broadcast_apply,
    q2_apply, k2_apply, qk_apply]
  have hz : (FloatOps.ofBits .f32 0x00000000#32 : Ideal .f32) = 0 := Ideal.ofBits_zero_f32
  rw [hz]
  refine congrArg (fun s => Ideal.exp (0 - Ideal.sqrt (max ((x3 (ix3 (0 : Fin 1) r (0 : Fin 1)) + x4 (ix3 (0 : Fin 1) (0 : Fin 1) j)) - s) 0)))
    (Finset.sum_congr rfl fun l _ => ?_)
  rw [shapeCast_1ab_ab_apply, shapeCast_1ab_ab_apply, slab_apply]

/-- The row sums of a tile: entry `r` is the sum over the 512 lanes of row `r`. -/
private theorem rowsum_apply (src : FVec Ideal S1024x512 .f32) (hφ : FKind.Formats .f32)
    (hacc : (0x00000000#32 : BitVec 32) = FKind.add.neutral .f32 hφ) (r : Fin 1024) :
    multiReduction (F := Ideal) .add [1] S1024 src 0x00000000#32 reduces_S1024x512_S1024 hφ hacc (ix1 r)
      = ∑ j : Fin 512, src (ix2 r j) := by
  refine (Ideal.multiReduction_add_single src 0x00000000#32 reduces_S1024x512_S1024 hφ hacc (ix1 r)).trans ?_
  refine Finset.sum_congr rfl fun k _ => congrArg src ?_
  funext a
  apply Fin.ext
  match a with
  | ⟨0, _⟩ => rfl
  | ⟨1, _⟩ => rfl

/-- The running row sum of row `r` after the point: what it was plus the row sum of the point's weight tile. -/
theorem lstep_apply (t : Fin cfg0.N) (x0 : Vec Ideal S1x1024x192 .bf16) (x1 : Vec Ideal S1x4096x192 .bf16)
    (x3 : Vec Ideal S1x1024x1 .f32) (x4 : Vec Ideal S1x1x512 .f32) (acc : Vec Ideal S1024x1 .f32) (r : Fin 1024) :
    lstep (grid0.coords t) x0 x1 x3 x4 acc (ix2 r (0 : Fin 1))
      = acc (ix2 r (0 : Fin 1)) + ∑ j : Fin 512, ptile (grid0.coords t) x0 x1 x3 x4 (ix2 r j) := by
  unfold lstep k0_pay1 k0_pay8
  rw [shapeCast_self, addf_apply, shapeCast_a_a1_apply]
  exact congrArg (acc (ix2 r (0 : Fin 1)) + ·) (rowsum_apply _ _ _ r)

/-! The second product contracts axis 1 of the weights with axis 0 of the value slab. -/
private theorem pv_lhs_0 (i : S1024x192.Idx) (q : dot_S1024x512_S512x192_S1024x192_1_0_0_1_n_n.contr.Idx) :
    (dot_S1024x512_S512x192_S1024x192_1_0_0_1_n_n.lhsIdx i q 0).val = (i 0).val := by
  unfold DotDims.lhsIdx
  rw [dif_neg (show ¬(0 : Fin S1024x512.rank) ∈ dot_S1024x512_S512x192_S1024x192_1_0_0_1_n_n.lhsBatch by decide), dif_pos (show (0 : Fin S1024x512.rank) ∈ dot_S1024x512_S512x192_S1024x192_1_0_0_1_n_n.lhsNonContracting by decide)]
  rfl
private theorem pv_lhs_1 (i : S1024x192.Idx) (q : dot_S1024x512_S512x192_S1024x192_1_0_0_1_n_n.contr.Idx) :
    (dot_S1024x512_S512x192_S1024x192_1_0_0_1_n_n.lhsIdx i q 1).val = (q ⟨0, by decide⟩).val :=
  dot_S1024x512_S512x192_S1024x192_1_0_0_1_n_n.lhsIdx_val_of_single rfl i q
private theorem pv_rhs_0 (i : S1024x192.Idx) (q : dot_S1024x512_S512x192_S1024x192_1_0_0_1_n_n.contr.Idx) :
    (dot_S1024x512_S512x192_S1024x192_1_0_0_1_n_n.rhsIdx i q 0).val = (q ⟨0, by decide⟩).val :=
  dot_S1024x512_S512x192_S1024x192_1_0_0_1_n_n.rhsIdx_val_of_single rfl i q
private theorem pv_rhs_1 (i : S1024x192.Idx) (q : dot_S1024x512_S512x192_S1024x192_1_0_0_1_n_n.contr.Idx) :
    (dot_S1024x512_S512x192_S1024x192_1_0_0_1_n_n.rhsIdx i q 1).val = (i 1).val := by
  unfold DotDims.rhsIdx
  rw [dif_neg (show ¬(1 : Fin S512x192.rank) ∈ dot_S1024x512_S512x192_S1024x192_1_0_0_1_n_n.rhsBatch by decide), dif_pos (show (1 : Fin S512x192.rank) ∈ dot_S1024x512_S512x192_S1024x192_1_0_0_1_n_n.rhsNonContracting by decide)]
  rfl

/-- The product of the weight tile with the value slab, into zeros: entry `(r, l)` sums, over the 512 key rows, the weight
    of the row against lane `l` of its value row. -/
private theorem pv_apply (y0 : FVec Ideal S1024x512 .bf16) (y1 : FVec Ideal S512x192 .bf16) (r : Fin 1024) (l : Fin 192) :
    matmul dot_S1024x512_S512x192_S1024x192_1_0_0_1_n_n none y0 y1 (constant (F := Ideal) S1024x192 .f32 0x00000000#32) (ix2 r l)
      = ∑ j : Fin 512, y0 (ix2 r j) * y1 (ix2 j l) := by
  simp only [matmul]
  rw [Ideal.matmul_constant_zero_apply, ← Equiv.sum_comp (ValueIdx.contrEquiv1 dot_S1024x512_S512x192_S1024x192_1_0_0_1_n_n 512 rfl rfl).symm]
  refine Finset.sum_congr rfl fun k _ => ?_
  have hk := ValueIdx.contrEquiv1_symm_val dot_S1024x512_S512x192_S1024x192_1_0_0_1_n_n 512 rfl rfl k
  have el : dot_S1024x512_S512x192_S1024x192_1_0_0_1_n_n.lhsIdx (ix2 r l) ((ValueIdx.contrEquiv1 dot_S1024x512_S512x192_S1024x192_1_0_0_1_n_n 512 rfl rfl).symm k) = ix2 r k := funext fun a => Fin.ext (by
    match a with
    | ⟨0, _⟩ => exact pv_lhs_0 _ _
    | ⟨1, _⟩ => exact (pv_lhs_1 _ _).trans hk)
  have er : dot_S1024x512_S512x192_S1024x192_1_0_0_1_n_n.rhsIdx (ix2 r l) ((ValueIdx.contrEquiv1 dot_S1024x512_S512x192_S1024x192_1_0_0_1_n_n 512 rfl rfl).symm k) = ix2 k l := funext fun a => Fin.ext (by
    match a with
    | ⟨0, _⟩ => exact (pv_rhs_0 _ _).trans hk
    | ⟨1, _⟩ => exact pv_rhs_1 _ _)
  rw [el, er]

/-- The running weighted sum at row `r`, lane `l` after the point: what it was plus the weights against the value slab. -/
theorem astep_apply (t : Fin cfg0.N) (x0 : Vec Ideal S1x1024x192 .bf16) (x1 x2 : Vec Ideal S1x4096x192 .bf16)
    (x3 : Vec Ideal S1x1024x1 .f32) (x4 : Vec Ideal S1x1x512 .f32) (acc : Vec Ideal S1024x192 .f32) (r : Fin 1024) (l : Fin 192) :
    astep (grid0.coords t) x0 x1 x2 x3 x4 acc (ix2 r l)
      = acc (ix2 r l) + ∑ j : Fin 512, ptile (grid0.coords t) x0 x1 x3 x4 (ix2 r j) * x2 (ix3 (0 : Fin 1) (sOf t j) l) := by
  unfold astep k0_pay2 k0_pay6
  rw [shapeCast_self, addf_apply, pv_apply]
  refine congrArg (acc (ix2 r l) + ·) (Finset.sum_congr rfl fun j _ => ?_)
  rw [truncf_apply, shapeCast_1ab_ab_apply, slab_apply]

/-- The final quotient: the weighted sum over the row sum. -/
theorem pay3_apply (a : Vec Ideal S1024x192 .f32) (d : Vec Ideal S1024x1 .f32) (r : Fin 1024) (l : Fin 192) :
    k0_pay3 (F := Ideal) a d (ix3 (0 : Fin 1) r l) = Ideal.div (a (ix2 r l)) (d (ix2 r (0 : Fin 1))) := by
  unfold k0_pay3
  refine (shapeCast_ab_1ab_apply _ shapeCasts_S1024x192_S1x1024x192 (0 : Fin 1) r l).trans ?_
  rw [divf_apply]
  exact congrArg (Ideal.div (a (ix2 r l))) (broadcastTo_a1_ab_apply d broadcasts_S1024x1_S1024x192 r l)

/-- The resets store zeros. -/
theorem pay4_apply (r : Fin 1024) : k0_pay4 (F := Ideal) (ix2 r (0 : Fin 1)) = 0 := by
  unfold k0_pay4
  rw [shapeCast_self]
  exact Ideal.ofBits_zero_f32

theorem pay5_apply (r : Fin 1024) (l : Fin 192) : k0_pay5 (F := Ideal) (ix2 r l) = 0 := by
  unfold k0_pay5
  rw [shapeCast_self]
  exact Ideal.ofBits_zero_f32

end Cert.KernelIdeal.Acc

end
-- ==== Proof.Spec.lean ====
/-
  The attention the two programs compute, as ONE function of the input array, index by index, on the
  extended reals.  The input `x` is [8, 4096, 576]: per batch `b` and token, 192 query lanes, 192 key lanes and
  192 value lanes.  Queries and keys are scaled by the f32 pattern of `192^(-1/2)`.  The logit of query token
  `t` against key token `s` is minus the Euclidean distance, through the expansion
  `|q|² + |k|² - Σ_c (2 q_c) k_c` clamped at zero; the weights are the exponentials of the logits; the result
  is the weighted mean of the value rows, `(Σ_s w_s v_s) / (Σ_s w_s)`.

  This is the kernel's own arrangement (the factor two folded into the query, no running maximum).  The
  reference's arrangement (the factor two outside the contraction, a maximum subtracted before the
  exponential, the weights normalised before the contraction with the values) is the same function where
  the input is finite.
-/
import Idealize.ShloMosaic.PureOps.Ideal
import Idealize.ShloMosaic.Lib.ValueIdx

noncomputable section

namespace Cert.DistAttn

open Idealize.ShloMosaic Idealize.ShloMosaic.ValueIdx

/-- The input's shape and the result's. -/
abbrev SX : Shape := ⟨3, ![8, 4096, 576]⟩
abbrev SO : Shape := ⟨3, ![8, 4096, 192]⟩

/-- The scale's pattern and the pattern of `2.0`, as extended reals. -/
def scl : EReal := Ideal.ofBits .f32 0x3D93CD3A#32
def two : EReal := Ideal.ofBits .f32 0x40000000#32

variable (x : SX.Idx → EReal)

/-- Lane `c` of the scaled query of token `t`. -/
def qv (b : Fin 8) (t : Fin 4096) (c : Fin 192) : EReal :=
  x (ix3 b t (⟨c.val, by have := c.isLt; omega⟩ : Fin 576)) * scl

/-- Lane `c` of the scaled key of token `s`. -/
def kv (b : Fin 8) (s : Fin 4096) (c : Fin 192) : EReal :=
  x (ix3 b s (⟨192 + c.val, by have := c.isLt; omega⟩ : Fin 576)) * scl

/-- Lane `c` of the value row of token `s`. -/
def vv (b : Fin 8) (s : Fin 4096) (c : Fin 192) : EReal :=
  x (ix3 b s (⟨384 + c.val, by have := c.isLt; omega⟩ : Fin 576))

/-- The squared norms of the scaled query and key (a sum started from zero). -/
def q2 (b : Fin 8) (t : Fin 4096) : EReal := 0 + ∑ c : Fin 192, qv x b t c * qv x b t c
def k2 (b : Fin 8) (s : Fin 4096) : EReal := 0 + ∑ c : Fin 192, kv x b s c * kv x b s c

/-- Minus the distance between query `t` and key `s`. -/
def logit (b : Fin 8) (t s : Fin 4096) : EReal :=
  0 - Ideal.sqrt (max ((q2 x b t + k2 x b s) - ∑ c : Fin 192, (qv x b t c * two) * kv x b s c) 0)

/-- The unnormalised weight of key `s` for query `t`. -/
def wgt (b : Fin 8) (t s : Fin 4096) : EReal := Ideal.exp (logit x b t s)

/-- The result at batch `b`, token `t`, lane `c`. -/
def att (b : Fin 8) (t : Fin 4096) (c : Fin 192) : EReal :=
  Ideal.div (∑ s : Fin 4096, wgt x b t s * vv x b s c) (∑ s : Fin 4096, wgt x b t s)

/-- The result array. -/
def G : SO.Idx → EReal := fun i =>
  att x (⟨(i 0).val, (i 0).isLt⟩ : Fin 8) (⟨(i 1).val, (i 1).isLt⟩ : Fin 4096) (⟨(i 2).val, (i 2).isLt⟩ : Fin 192)

theorem G_ix3 (b : Fin 8) (t : Fin 4096) (c : Fin 192) : G x (ix3 b t c) = att x b t c := rfl

end Cert.DistAttn

end
-- ==== Proof.Consts.lean ====
/-
  The float constants the two programs spell, as the extended reals their patterns denote: the
  scale `192^(-1/2)` rounded to f32 is SOME real (its value is never needed: both programs multiply by the
  same pattern), `2.0` is the real `2`, and the reference's `-inf` is the bottom element.
-/
import Idealize.ShloMosaic.PureOps.Ideal
import Idealize.ShloMosaic.PureOps.Ideal.Laws

noncomputable section

namespace Cert.Consts

open Idealize.ShloMosaic

/-- The scale both programs multiply the queries and the keys by denotes a real number. -/
theorem ofBits_scale : ∃ σ : ℝ, Ideal.ofBits .f32 0x3D93CD3A#32 = (σ : EReal) := by
  refine ⟨(1 : ℝ) * ((2 ^ 23 + 1297722 : ℕ) : ℝ) * (2 : ℝ) ^ ((123 : ℤ) - (2 ^ (8 - 1) - 1) - 23), ?_⟩
  simp [Ideal.ofBits, Ideal.ieee, -EReal.coe_mul]

/-- `2.0` denotes the real `2`. -/
theorem ofBits_two : Ideal.ofBits .f32 0x40000000#32 = ((2 : ℝ) : EReal) := by
  simp [Ideal.ofBits, Ideal.ieee, -EReal.coe_mul]; norm_num

/-- The pattern of `-inf` denotes the bottom of the extended reals. -/
theorem ofBits_neg_inf : Ideal.ofBits .f32 0xFF800000#32 = (⊥ : EReal) := by
  simp [Ideal.ofBits, Ideal.ieee]

end Cert.Consts

end
-- ==== Proof.KInputs.lean ====
/-
  The five input blocks of a grid point of the attention kernel, entry by entry, as the functions of Spec.lean of
  the program's input array: the host operations in front of the kernel (three slices, the scaling, the doubling of the
  query, the two sums of squares, a transposition) read at an index, and each window's block read where its index map
  puts it.
-/
import proofs.«429850_j89799176225591_3_alg».proof.Proof.KCoords
import proofs.«429850_j89799176225591_3_alg».proof.Proof.Spec
import proofs.«429850_j89799176225591_3_alg».proof.Proof.Consts
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.Acc

open Cert.KernelIdeal Cert.KernelIdeal.Gen Cert.DistAttn
open Idealize.ShloMosaic Idealize.ShloMosaic.TcCoe Idealize.SL.Sem Idealize.ShloMosaic.ValueIdx
open Idealize.ShloMosaic.StableHlo

/-! ## The host operations in front of the kernel, read at an index

The kernel's five operands are computed from the input `x` by elementwise and layout operations and two sums over the
lanes. Each is named here as a function of `x` and read at an index; the conversions to and from bf16 are the identity
on extended reals. -/

section Host

variable (x : S8x4096x576.Idx → EReal)

/-- The array of the scale. -/
private abbrev sclArr : S8x4096x192.Idx → EReal :=
  broadcastInDim S8x4096x192 ![] bcast_S_S8x4096x192 (constant (F := Ideal) S_ .f32 0x3D93CD3A#32)

/-- The array of `2.0`. -/
private abbrev twoArr : S8x4096x192.Idx → EReal :=
  broadcastInDim S8x4096x192 ![] bcast_S_S8x4096x192 (constant (F := Ideal) S_ .f32 0x40000000#32)

/-- The scaled queries: lanes 0 to 191 of the input times the scale. -/
private abbrev qsArr : S8x4096x192.Idx → EReal :=
  mulf (F := Ideal) (φ := .f32) (extractStridedSlice S8x4096x192 ![0, 0, 0] x slices_S8x4096x576_S8x4096x192_0_0_0) sclArr

/-- The scaled keys: lanes 192 to 383 of the input times the scale. -/
private abbrev ksArr : S8x4096x192.Idx → EReal :=
  mulf (F := Ideal) (φ := .f32) (extractStridedSlice S8x4096x192 ![0, 0, 192] x slices_S8x4096x576_S8x4096x192_0_0_192) sclArr

/-- The values: lanes 384 to 575 of the input. -/
private abbrev vsArr : S8x4096x192.Idx → EReal :=
  extractStridedSlice S8x4096x192 ![0, 0, 384] x slices_S8x4096x576_S8x4096x192_0_0_384

/-- The sum over the lanes of the squares of an array narrowed to bf16 and widened back, started from zero. -/
private abbrev sqSum (y : S8x4096x192.Idx → EReal) : S8x4096.Idx → EReal :=
  Host.reduceAdd (F := Ideal) (φ := .f32)
    (mulf (F := Ideal) (φ := .f32) (extf (F := Ideal) .f32 (truncf (F := Ideal) (φ := .f32) .bf16 y bitsLt_bf16_f32) bitsLt_bf16_f32)
      (extf (F := Ideal) .f32 (truncf (F := Ideal) (φ := .f32) .bf16 y bitsLt_bf16_f32) bitsLt_bf16_f32))
    (constant (F := Ideal) S_ .f32 0x00000000#32) reducesTo_S8x4096x192_S8x4096_d2 h_S_

/-- The scale's array holds the scale everywhere. -/
private theorem sclArr_apply (i : S8x4096x192.Idx) : sclArr i = scl := by
  unfold scl
  exact broadcastInDim_scalar_apply bcast_S_S8x4096x192 _ i

/-- The array of `2.0` holds `2.0` everywhere. -/
private theorem twoArr_apply (i : S8x4096x192.Idx) : twoArr i = two := by
  unfold two
  exact broadcastInDim_scalar_apply bcast_S_S8x4096x192 _ i

/-- The scaled queries at batch `b`, token `t`, lane `l`. -/
private theorem qsArr_apply (b : Fin 8) (t : Fin 4096) (l : Fin 192) : qsArr x (ix3 b t l) = qv x b t l := by
  unfold qv
  show extractStridedSlice S8x4096x192 ![0, 0, 0] x slices_S8x4096x576_S8x4096x192_0_0_0 (ix3 b t l) * sclArr (ix3 b t l) = _
  rw [sclArr_apply]
  refine congrArg (· * scl) ?_
  exact extractStridedSlice_apply ![0, 0, 0] x slices_S8x4096x576_S8x4096x192_0_0_0 (ix3 b t l) _ (fun a => match a with
    | ⟨0, _⟩ => by show b.val = 0 + b.val; omega
    | ⟨1, _⟩ => by show t.val = 0 + t.val; omega
    | ⟨2, _⟩ => by show l.val = 0 + l.val; omega)

/-- The scaled keys at batch `b`, token `s`, lane `l`. -/
private theorem ksArr_apply (b : Fin 8) (s : Fin 4096) (l : Fin 192) : ksArr x (ix3 b s l) = kv x b s l := by
  unfold kv
  show extractStridedSlice S8x4096x192 ![0, 0, 192] x slices_S8x4096x576_S8x4096x192_0_0_192 (ix3 b s l) * sclArr (ix3 b s l) = _
  rw [sclArr_apply]
  refine congrArg (· * scl) ?_
  exact extractStridedSlice_apply ![0, 0, 192] x slices_S8x4096x576_S8x4096x192_0_0_192 (ix3 b s l) _ (fun a => match a with
    | ⟨0, _⟩ => by show b.val = 0 + b.val; omega
    | ⟨1, _⟩ => by show s.val = 0 + s.val; omega
    | ⟨2, _⟩ => by show 192 + l.val = 192 + l.val; omega)

/-- The values at batch `b`, token `s`, lane `l`. -/
private theorem vsArr_apply (b : Fin 8) (s : Fin 4096) (l : Fin 192) : vsArr x (ix3 b s l) = vv x b s l := by
  unfold vv
  exact extractStridedSlice_apply ![0, 0, 384] x slices_S8x4096x576_S8x4096x192_0_0_384 (ix3 b s l) _ (fun a => match a with
    | ⟨0, _⟩ => by show b.val = 0 + b.val; omega
    | ⟨1, _⟩ => by show s.val = 0 + s.val; omega
    | ⟨2, _⟩ => by show 384 + l.val = 384 + l.val; omega)

/-- The sum of squares at batch `b`, token `t`: zero plus the sum over the 192 lanes. -/
private theorem sqSum_apply (y : S8x4096x192.Idx → EReal) (b : Fin 8) (t : Fin 4096) :
    sqSum y (ix2 b t) = 0 + ∑ l : Fin 192, y (ix3 b t l) * y (ix3 b t l) := by
  have hR : S8x4096x192.Reduces [2] S8x4096 := by decide
  simp only [Host.reduceAdd, Ideal.hostReduceAdd_def]
  rw [Ideal.hostReduceAdd_single reducesTo_S8x4096x192_S8x4096_d2 hR]
  rw [show constant (F := Ideal) S_ .f32 0x00000000#32 (Shape.Idx.first h_S_) = 0 from Ideal.ofBits_zero_f32]
  refine congrArg (0 + ·) (Finset.sum_congr rfl fun k _ => ?_)
  exact congrArg (fun i => y i * y i)
    (funext fun a => Fin.ext (by match a with | ⟨0, _⟩ => rfl | ⟨1, _⟩ => rfl | ⟨2, _⟩ => rfl))

/-- The sum of squares laid out as a column, at batch `b`, token `t`. -/
private theorem sqCol_apply (y : S8x4096x192.Idx → EReal) (b : Fin 8) (t : Fin 4096) :
    broadcastInDim S8x4096x1 ![0, 1] bcast_S8x4096_S8x4096x1_0_1 (sqSum y) (ix3 b t (0 : Fin 1))
      = 0 + ∑ l : Fin 192, y (ix3 b t l) * y (ix3 b t l) := by
  refine (broadcastInDim_apply _ bcast_S8x4096_S8x4096x1_0_1 (sqSum y) (ix3 b t (0 : Fin 1)) (ix2 b t) (fun a => match a with
    | ⟨0, _⟩ => by show b.val = if (8 : Nat) = 1 then 0 else b.val; rw [if_neg (by decide)]
    | ⟨1, _⟩ => by show t.val = if (4096 : Nat) = 1 then 0 else t.val; rw [if_neg (by decide)])).trans ?_
  exact sqSum_apply y b t

/-- The same column transposed to a row, at batch `b`, token `s`. -/
private theorem sqRow_apply (y : S8x4096x192.Idx → EReal) (b : Fin 8) (s : Fin 4096) :
    transpose S8x1x4096 [0, 2, 1] (broadcastInDim S8x4096x1 ![0, 1] bcast_S8x4096_S8x4096x1_0_1 (sqSum y))
        transposes_S8x4096x1_S8x1x4096_0_2_1 (ix3 b (0 : Fin 1) s)
      = 0 + ∑ l : Fin 192, y (ix3 b s l) * y (ix3 b s l) := by
  refine (transpose_apply [0, 2, 1] _ transposes_S8x4096x1_S8x1x4096_0_2_1 (ix3 b (0 : Fin 1) s) (ix3 b s (0 : Fin 1))
    (fun a => match a with
      | ⟨0, _⟩ => rfl
      | ⟨1, _⟩ => rfl
      | ⟨2, _⟩ => rfl)).trans ?_
  exact sqCol_apply y b s

end Host

variable (m : (ℓ : Loc nD τ sig) → Buf (Elt Ideal) ℓ)

/-- The program's input array on core `c`. -/
abbrev xin (c : Dev nD) : SX.Idx → EReal := m ((c : Thread nD τ).loc main_arg0)

/-! ## The kernel's five operand arrays, as the host operations leave them -/

section Operands

/-- The first operand: the scaled queries doubled, narrowed to bf16. -/
private theorem V_q (c : Dev nD) :
    @Eq (S8x4096x192.Idx → EReal) (V m c main_v12)
      (truncf (F := Ideal) (φ := .f32) .bf16 (mulf (F := Ideal) (φ := .f32) (qsArr (xin m c)) twoArr) bitsLt_bf16_f32) := by
  dsimp only [Gen.V, Gen.hostOps0]
  after_results

/-- The second operand: the scaled keys, narrowed to bf16. -/
private theorem V_k (c : Dev nD) :
    @Eq (S8x4096x192.Idx → EReal) (V m c main_v7)
      (truncf (F := Ideal) (φ := .f32) .bf16 (ksArr (xin m c)) bitsLt_bf16_f32) := by
  dsimp only [Gen.V, Gen.hostOps0]
  after_results

/-- The third operand: the values, narrowed to bf16. -/
private theorem V_v (c : Dev nD) :
    @Eq (S8x4096x192.Idx → EReal) (V m c main_v8)
      (truncf (F := Ideal) (φ := .f32) .bf16 (vsArr (xin m c)) bitsLt_bf16_f32) := by
  dsimp only [Gen.V, Gen.hostOps0]
  after_results

/-- The fourth operand: the column of the queries' squared norms. -/
private theorem V_q2 (c : Dev nD) :
    @Eq (S8x4096x1.Idx → EReal) (V m c main_v16)
      (broadcastInDim S8x4096x1 ![0, 1] bcast_S8x4096_S8x4096x1_0_1 (sqSum (qsArr (xin m c)))) := by
  dsimp only [Gen.V, Gen.hostOps0]
  after_results

/-- The fifth operand: the row of the keys' squared norms. -/
private theorem V_k2 (c : Dev nD) :
    @Eq (S8x1x4096.Idx → EReal) (V m c main_v21)
      (transpose S8x1x4096 [0, 2, 1] (broadcastInDim S8x4096x1 ![0, 1] bcast_S8x4096_S8x4096x1_0_1 (sqSum (ksArr (xin m c))))
        transposes_S8x4096x1_S8x1x4096_0_2_1) := by
  dsimp only [Gen.V, Gen.hostOps0]
  after_results

/-- The first operand at batch `b`, token `t`, lane `l`: the scaled query doubled. -/
private theorem V_q_apply (c : Dev nD) (b : Fin 8) (t : Fin 4096) (l : Fin 192) :
    (V m c main_v12 : S8x4096x192.Idx → EReal) (ix3 b t l) = qv (xin m c) b t l * two := by
  refine (congrFun (V_q m c) (ix3 b t l)).trans ?_
  show qsArr (xin m c) (ix3 b t l) * twoArr (ix3 b t l) = _
  rw [qsArr_apply, twoArr_apply]

/-- The second operand at batch `b`, token `s`, lane `l`: the scaled key. -/
private theorem V_k_apply (c : Dev nD) (b : Fin 8) (s : Fin 4096) (l : Fin 192) :
    (V m c main_v7 : S8x4096x192.Idx → EReal) (ix3 b s l) = kv (xin m c) b s l :=
  (congrFun (V_k m c) (ix3 b s l)).trans (ksArr_apply (xin m c) b s l)

/-- The third operand at batch `b`, token `s`, lane `l`: the value. -/
private theorem V_v_apply (c : Dev nD) (b : Fin 8) (s : Fin 4096) (l : Fin 192) :
    (V m c main_v8 : S8x4096x192.Idx → EReal) (ix3 b s l) = vv (xin m c) b s l :=
  (congrFun (V_v m c) (ix3 b s l)).trans (vsArr_apply (xin m c) b s l)

/-- The fourth operand at batch `b`, token `t`: the query's squared norm. -/
private theorem V_q2_apply (c : Dev nD) (b : Fin 8) (t : Fin 4096) :
    (V m c main_v16 : S8x4096x1.Idx → EReal) (ix3 b t (0 : Fin 1)) = q2 (xin m c) b t := by
  refine (congrFun (V_q2 m c) (ix3 b t (0 : Fin 1))).trans ?_
  refine (sqCol_apply (qsArr (xin m c)) b t).trans ?_
  unfold q2
  refine congrArg (0 + ·) (Finset.sum_congr rfl fun l _ => ?_)
  rw [qsArr_apply]

/-- The fifth operand at batch `b`, token `s`: the key's squared norm. -/
private theorem V_k2_apply (c : Dev nD) (b : Fin 8) (s : Fin 4096) :
    (V m c main_v21 : S8x1x4096.Idx → EReal) (ix3 b (0 : Fin 1) s) = k2 (xin m c) b s := by
  refine (congrFun (V_k2 m c) (ix3 b (0 : Fin 1) s)).trans ?_
  refine (sqRow_apply (ksArr (xin m c)) b s).trans ?_
  unfold k2
  refine congrArg (0 + ·) (Finset.sum_congr rfl fun l _ => ?_)
  rw [ksArr_apply]

end Operands

/-! ## The windows' blocks, entry by entry, as entries of their arrays

A block's coordinate on an axis is the window's block index there times the block's extent plus the coordinate inside
the block; the block indices are decided once over the 256 points of the grid. -/

section Blocks

/-- The block index of the first window (the doubled queries): batch, query tile, 0. -/
private theorem idx_q : ∀ t : Fin cfg0.N, win0_0.index t 0 = t.val / 32 ∧ win0_0.index t 1 = t.val / 8 % 4 ∧ win0_0.index t 2 = 0 :=
  (by decide +kernel : ∀ t : Fin grid0.N, win0_0.index t 0 = t.val / 32 ∧ win0_0.index t 1 = t.val / 8 % 4 ∧ win0_0.index t 2 = 0)

/-- The block index of the second window (the keys): batch, 0, 0. -/
private theorem idx_k : ∀ t : Fin cfg0.N, win0_1.index t 0 = t.val / 32 ∧ win0_1.index t 1 = 0 ∧ win0_1.index t 2 = 0 :=
  (by decide +kernel : ∀ t : Fin grid0.N, win0_1.index t 0 = t.val / 32 ∧ win0_1.index t 1 = 0 ∧ win0_1.index t 2 = 0)

/-- The block index of the third window (the values): batch, 0, 0. -/
private theorem idx_v : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)

/-- The block index of the fourth window (the queries' squared norms): batch, query tile, 0. -/
private theorem idx_q2 : ∀ t : Fin cfg0.N, win0_3.index t 0 = t.val / 32 ∧ win0_3.index t 1 = t.val / 8 % 4 ∧ win0_3.index t 2 = 0 :=
  (by decide +kernel : ∀ t : Fin grid0.N, win0_3.index t 0 = t.val / 32 ∧ win0_3.index t 1 = t.val / 8 % 4 ∧ win0_3.index t 2 = 0)

/-- The block index of the fifth window (the keys' squared norms): batch, 0, key tile. -/
private theorem idx_k2 : ∀ t : Fin cfg0.N, win0_4.index t 0 = t.val / 32 ∧ win0_4.index t 1 = 0 ∧ win0_4.index t 2 = t.val % 8 :=
  (by decide +kernel : ∀ t : Fin grid0.N, win0_4.index t 0 = t.val / 32 ∧ win0_4.index t 1 = 0 ∧ win0_4.index t 2 = t.val % 8)

/-- Row `r`, lane `l` of the query block of point `t` is the first operand at the point's batch and the row's token. -/
private theorem qblk_at (c : Dev nD) (t : Fin cfg0.N) (r : Fin 1024) (l : Fin 192) :
    qblk m c t (ix3 (0 : Fin 1) r l) = (V m c main_v12 : S8x4096x192.Idx → EReal) (ix3 (bOf t) (tOf t r) l) := by
  have hi := idx_q t
  unfold qblk iblk
  rw [View.read_apply]
  show V m c main_v12 _ = V m c main_v12 _
  congr 1
  funext a
  apply Fin.ext
  match a with
  | ⟨0, _⟩ => show win0_0.index t 0 * 1 + 1 * 0 = t.val / 32; rw [hi.1]; omega
  | ⟨1, _⟩ => show win0_0.index t 1 * 1024 + 1 * r.val = t.val / 8 % 4 * 1024 + r.val; rw [hi.2.1]; omega
  | ⟨2, _⟩ => show win0_0.index t 2 * 192 + 1 * l.val = l.val; rw [hi.2.2]; omega

/-- Row `s`, lane `l` of the key block of point `t` is the second operand at the point's batch and token `s`. -/
private theorem kblk_at (c : Dev nD) (t : Fin cfg0.N) (s : Fin 4096) (l : Fin 192) :
    kblk m c t (ix3 (0 : Fin 1) s l) = (V m c main_v7 : S8x4096x192.Idx → EReal) (ix3 (bOf t) s l) := by
  have hi := idx_k t
  unfold kblk iblk
  rw [View.read_apply]
  show V m c main_v7 _ = V m c main_v7 _
  congr 1
  funext a
  apply Fin.ext
  match a with
  | ⟨0, _⟩ => show win0_1.index t 0 * 1 + 1 * 0 = t.val / 32; rw [hi.1]; omega
  | ⟨1, _⟩ => show win0_1.index t 1 * 4096 + 1 * s.val = s.val; rw [hi.2.1]; omega
  | ⟨2, _⟩ => show win0_1.index t 2 * 192 + 1 * l.val = l.val; rw [hi.2.2]; omega

/-- Row `s`, lane `l` of the value block of point `t` is the third operand at the point's batch and token `s`. -/
private theorem vblk_at (c : Dev nD) (t : Fin cfg0.N) (s : Fin 4096) (l : Fin 192) :
    vblk m c t (ix3 (0 : Fin 1) s l) = (V m c main_v8 : S8x4096x192.Idx → EReal) (ix3 (bOf t) s l) := by
  have hi := idx_v t
  unfold vblk iblk
  rw [View.read_apply]
  show V m c main_v8 _ = V m c main_v8 _
  congr 1
  funext a
  apply Fin.ext
  match a with
  | ⟨0, _⟩ => show win0_2.index t 0 * 1 + 1 * 0 = t.val / 32; rw [hi.1]; omega
  | ⟨1, _⟩ => show win0_2.index t 1 * 4096 + 1 * s.val = s.val; rw [hi.2.1]; omega
  | ⟨2, _⟩ => show win0_2.index t 2 * 192 + 1 * l.val = l.val; rw [hi.2.2]; omega

/-- Row `r` of the block of the queries' squared norms of point `t` is the fourth operand at the point's batch and the
    row's token. -/
private theorem q2blk_at (c : Dev nD) (t : Fin cfg0.N) (r : Fin 1024) :
    q2blk m c t (ix3 (0 : Fin 1) r (0 : Fin 1))
      = (V m c main_v16 : S8x4096x1.Idx → EReal) (ix3 (bOf t) (tOf t r) (0 : Fin 1)) := by
  have hi := idx_q2 t
  unfold q2blk iblk
  rw [View.read_apply]
  show V m c main_v16 _ = V m c main_v16 _
  congr 1
  funext a
  apply Fin.ext
  match a with
  | ⟨0, _⟩ => show win0_3.index t 0 * 1 + 1 * 0 = t.val / 32; rw [hi.1]; omega
  | ⟨1, _⟩ => show win0_3.index t 1 * 1024 + 1 * r.val = t.val / 8 % 4 * 1024 + r.val; rw [hi.2.1]; omega
  | ⟨2, _⟩ => show win0_3.index t 2 * 1 + 1 * 0 = 0; rw [hi.2.2]

/-- Column `j` of the block of the keys' squared norms of point `t` is the fifth operand at the point's batch and the
    column's token. -/
private theorem k2blk_at (c : Dev nD) (t : Fin cfg0.N) (j : Fin 512) :
    k2blk m c t (ix3 (0 : Fin 1) (0 : Fin 1) j)
      = (V m c main_v21 : S8x1x4096.Idx → EReal) (ix3 (bOf t) (0 : Fin 1) (sOf t j)) := by
  have hi := idx_k2 t
  unfold k2blk iblk
  rw [View.read_apply]
  show V m c main_v21 _ = V m c main_v21 _
  congr 1
  funext a
  apply Fin.ext
  match a with
  | ⟨0, _⟩ => show win0_4.index t 0 * 1 + 1 * 0 = t.val / 32; rw [hi.1]; omega
  | ⟨1, _⟩ => show win0_4.index t 1 * 1 + 1 * 0 = 0; rw [hi.2.1]
  | ⟨2, _⟩ => show win0_4.index t 2 * 512 + 1 * j.val = t.val % 8 * 512 + j.val; rw [hi.2.2]; omega

end Blocks

/-! ## The five blocks as the functions of the specification -/

theorem blk_q (c : Dev nD) (t : Fin cfg0.N) (r : Fin 1024) (l : Fin 192) :
    qblk m c t (ix3 (0 : Fin 1) r l) = qv (xin m c) (bOf t) (tOf t r) l * two :=
  (qblk_at m c t r l).trans (V_q_apply m c (bOf t) (tOf t r) l)

theorem blk_k (c : Dev nD) (t : Fin cfg0.N) (s : Fin 4096) (l : Fin 192) :
    kblk m c t (ix3 (0 : Fin 1) s l) = kv (xin m c) (bOf t) s l :=
  (kblk_at m c t s l).trans (V_k_apply m c (bOf t) s l)

theorem blk_v (c : Dev nD) (t : Fin cfg0.N) (s : Fin 4096) (l : Fin 192) :
    vblk m c t (ix3 (0 : Fin 1) s l) = vv (xin m c) (bOf t) s l :=
  (vblk_at m c t s l).trans (V_v_apply m c (bOf t) s l)

theorem blk_q2 (c : Dev nD) (t : Fin cfg0.N) (r : Fin 1024) :
    q2blk m c t (ix3 (0 : Fin 1) r (0 : Fin 1)) = q2 (xin m c) (bOf t) (tOf t r) :=
  (q2blk_at m c t r).trans (V_q2_apply m c (bOf t) (tOf t r))

theorem blk_k2 (c : Dev nD) (t : Fin cfg0.N) (j : Fin 512) :
    k2blk m c t (ix3 (0 : Fin 1) (0 : Fin 1) j) = k2 (xin m c) (bOf t) (sOf t j) :=
  (k2blk_at m c t j).trans (V_k2_apply m c (bOf t) (sOf t j))

end Cert.KernelIdeal.Acc

end
-- ==== Proof.KFold.lean ====
/-
  The two running sums of the attention kernel along the key-tile axis, in closed form.  A run is the eight
  consecutive points that share a batch and a query tile; its first point resets the scratch buffers to zero and every
  point adds its tile's contribution, so after the run's last point the row-sum scratch holds, for query row `r`,
  `0 + Σ_(eight tiles) Σ_(512 keys) w` and the other scratch `0 + Σ_(eight tiles) Σ_(512 keys) w·v`; eight tiles of 512
  keys are the 4096 keys of the batch, and the output block is the quotient of the two: the attention of Spec.lean.
-/
import proofs.«429850_j89799176225591_3_alg».proof.Proof.KCoords
import proofs.«429850_j89799176225591_3_alg».proof.Proof.KPieces
import proofs.«429850_j89799176225591_3_alg».proof.Proof.KPayIdx
import proofs.«429850_j89799176225591_3_alg».proof.Proof.KInputs
import proofs.«429850_j89799176225591_3_alg».proof.Proof.Spec
import Idealize.ShloMosaic.Lib.Pipeline.Value
import Idealize.ShloMosaic.Lib.ValueIdx

set_option maxRecDepth 16384

noncomputable section

namespace Cert.KernelIdeal.Acc

open Cert.KernelIdeal Cert.KernelIdeal.Gen Cert.KernelIdeal.Value Cert.DistAttn
open Idealize.ShloMosaic Idealize.ShloMosaic.TcCoe Idealize.SL.Sem Idealize.ShloMosaic.ValueIdx

/-! ## Eight tiles of 512 keys are the 4096 keys -/

/-- A sum over tiles and over the rows of a tile is the sum over all rows. -/
theorem sum_tiles {M : Type} [AddCommMonoid M] (f : Fin 4096 → M) (g : ℕ → M)
    (hg : ∀ a : Fin 8, g a.val = ∑ j : Fin 512, f ⟨a.val * 512 + j.val, by have := a.isLt; have := j.isLt; omega⟩) :
    ∑ s ∈ Finset.range 8, g s = ∑ k : Fin 4096, f k := by
  rw [Finset.sum_range, ← Equiv.sum_comp (finProdFinEquiv : Fin 8 × Fin 512 ≃ Fin 4096) f, Fintype.sum_prod_type]
  refine Finset.sum_congr rfl fun a _ => ?_
  rw [hg a]
  refine Finset.sum_congr rfl fun j _ => ?_
  congr 1
  apply Fin.ext
  show a.val * 512 + j.val = j.val + 512 * a.val
  omega

/-! ## The scratch indices -/

theorem idx_col (i : S1024x1.Idx) : i = ix2 (⟨(i 0).val, (i 0).isLt⟩ : Fin 1024) (0 : Fin 1) := by
  funext a
  apply Fin.ext
  match a with
  | ⟨0, _⟩ => rfl
  | ⟨1, _⟩ => have h : (i 1).val < 1 := (i 1).isLt; show (i 1).val = 0; omega

theorem idx_mat (i : S1024x192.Idx) : i = ix2 (⟨(i 0).val, (i 0).isLt⟩ : Fin 1024) (⟨(i 1).val, (i 1).isLt⟩ : Fin 192) := by
  funext a
  apply Fin.ext
  match a with
  | ⟨0, _⟩ => rfl
  | ⟨1, _⟩ => rfl

variable (m : (ℓ : Loc nD τ sig) → Buf (Elt Ideal) ℓ)

/-! ## What one point does to each scratch -/

/-- The weight tile of a point. -/
abbrev wtile (c : Dev nD) (t : Fin cfg0.N) : Vec Ideal S1024x512 .f32 :=
  ptile (grid0.coords t) (qblk m c t) (kblk m c t) (q2blk m c t) (k2blk m c t)

theorem scAt0_0_first (c : Dev nD) (n : ℕ) (hb : n < cfg0.N) (h0 : n % 8 = 0) (acc : Vec Ideal S1024x1 .f32) :
    scAt0_0 m c n hb acc
      = lstep (grid0.coords (⟨n, hb⟩ : Fin cfg0.N)) (qblk m c (⟨n, hb⟩ : Fin cfg0.N)) (kblk m c (⟨n, hb⟩ : Fin cfg0.N)) (q2blk m c (⟨n, hb⟩ : Fin cfg0.N)) (k2blk m c (⟨n, hb⟩ : Fin cfg0.N)) (k0_pay4 (F := Ideal)) := by
  have h1 : ¬n % 8 = 7 := by omega
  unfold scAt0_0
  rw [dif_pos h0, dif_neg h1]
  exact sout_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))

theorem scAt0_0_next (c : Dev nD) (n : ℕ) (hb : n < cfg0.N) (h0 : ¬n % 8 = 0) (acc : Vec Ideal S1024x1 .f32) :
    scAt0_0 m c n hb acc
      = lstep (grid0.coords (⟨n, hb⟩ : Fin cfg0.N)) (qblk m c (⟨n, hb⟩ : Fin cfg0.N)) (kblk m c (⟨n, hb⟩ : Fin cfg0.N)) (q2blk m c (⟨n, hb⟩ : Fin cfg0.N)) (k2blk m c (⟨n, hb⟩ : Fin cfg0.N)) acc := by
  unfold scAt0_0
  rw [dif_neg h0]
  by_cases h1 : n % 8 = 7
  · rw [dif_pos h1]
    exact sout_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2
  · rw [dif_neg h1]
    exact sout_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2

theorem scAt0_1_first (c : Dev nD) (n : ℕ) (hb : n < cfg0.N) (h0 : n % 8 = 0) (acc : Vec Ideal S1024x192 .f32) :
    scAt0_1 m c n hb acc
      = astep (grid0.coords (⟨n, hb⟩ : Fin cfg0.N)) (qblk m c (⟨n, hb⟩ : Fin cfg0.N)) (kblk m c (⟨n, hb⟩ : Fin cfg0.N)) (vblk m c (⟨n, hb⟩ : Fin cfg0.N)) (q2blk m c (⟨n, hb⟩ : Fin cfg0.N)) (k2blk m c (⟨n, hb⟩ : Fin cfg0.N)) (k0_pay5 (F := Ideal)) := by
  have h1 : ¬n % 8 = 7 := by omega
  unfold scAt0_1
  rw [dif_pos h0, dif_neg h1]
  exact sout_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))

theorem scAt0_1_next (c : Dev nD) (n : ℕ) (hb : n < cfg0.N) (h0 : ¬n % 8 = 0) (acc : Vec Ideal S1024x192 .f32) :
    scAt0_1 m c n hb acc
      = astep (grid0.coords (⟨n, hb⟩ : Fin cfg0.N)) (qblk m c (⟨n, hb⟩ : Fin cfg0.N)) (kblk m c (⟨n, hb⟩ : Fin cfg0.N)) (vblk m c (⟨n, hb⟩ : Fin cfg0.N)) (q2blk m c (⟨n, hb⟩ : Fin cfg0.N)) (k2blk m c (⟨n, hb⟩ : Fin cfg0.N)) acc := by
  unfold scAt0_1
  rw [dif_neg h0]
  by_cases h1 : n % 8 = 7
  · rw [dif_pos h1]
    exact sout_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc
  · rw [dif_neg h1]
    exact sout_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.1 acc

/-! ## The running sums after any point of a run -/

/-- What point `n` adds to the running row sums: the row sums of its weight tile. -/
def addL (c : Dev nD) (n : ℕ) : S1024x1.Idx → EReal := fun i =>
  if h : n < cfg0.N then ∑ j : Fin 512, wtile m c ⟨n, h⟩ (ix2 (⟨(i 0).val, (i 0).isLt⟩ : Fin 1024) j) else 0

/-- What point `n` adds to the running weighted sums: its weight tile against its slab of value rows. -/
def addA (c : Dev nD) (n : ℕ) : S1024x192.Idx → EReal := fun i =>
  if h : n < cfg0.N then
    ∑ j : Fin 512, wtile m c ⟨n, h⟩ (ix2 (⟨(i 0).val, (i 0).isLt⟩ : Fin 1024) j)
      * vblk m c ⟨n, h⟩ (ix3 (0 : Fin 1) (sOf ⟨n, h⟩ j) (⟨(i 1).val, (i 1).isLt⟩ : Fin 192))
  else 0

/-- The row-sum scratch after point `t`: zero plus the addends of the run's points up to `t`. -/
theorem lsum_eq (c : Dev nD) (t : Fin cfg0.N) (i : S1024x1.Idx) :
    (outsAt0 m c t.val t.isLt).2.1 i = 0 + ∑ s ∈ Finset.range (t.val % 8 + 1), addL m c (8 * (t.val / 8) + s) i := by
  rw [soutsAt0_0_eq]
  exact Pipeline.accAt_add_apply (fun n h => scAt0_0 m c n h (VS0_0.read (Elt Ideal) VS0_0.junk)) (scAt0_0 m c)
    (fun _ => (0 : EReal)) (addL m c) (8 * (t.val / 8)) 7
    (fun h i => by
      obtain ⟨r, rfl⟩ : ∃ r : Fin 1024, i = ix2 r (0 : Fin 1) := ⟨_, idx_col i⟩
      rw [scAt0_0_first m c _ h (by omega), lstep_apply, pay4_apply]
      unfold addL
      rw [dif_pos h])
    (fun n h acc i hlt hle => by
      obtain ⟨r, rfl⟩ : ∃ r : Fin 1024, i = ix2 r (0 : Fin 1) := ⟨_, idx_col i⟩
      rw [scAt0_0_next m c n h (by omega) acc, lstep_apply]
      unfold addL
      rw [dif_pos h])
    (t.val % 8) (by omega) _ i

/-- The weighted-sum scratch after point `t`, likewise. -/
theorem asum_eq (c : Dev nD) (t : Fin cfg0.N) (i : S1024x192.Idx) :
    (outsAt0 m c t.val t.isLt).2.2 i = 0 + ∑ s ∈ Finset.range (t.val % 8 + 1), addA m c (8 * (t.val / 8) + s) i := by
  rw [soutsAt0_1_eq]
  exact Pipeline.accAt_add_apply (fun n h => scAt0_1 m c n h (VS0_1.read (Elt Ideal) VS0_1.junk)) (scAt0_1 m c)
    (fun _ => (0 : EReal)) (addA m c) (8 * (t.val / 8)) 7
    (fun h i => by
      obtain ⟨r, l, rfl⟩ : ∃ (r : Fin 1024) (l : Fin 192), i = ix2 r l := ⟨_, _, idx_mat i⟩
      rw [scAt0_1_first m c _ h (by omega), astep_apply, pay5_apply]
      unfold addA
      rw [dif_pos h])
    (fun n h acc i hlt hle => by
      obtain ⟨r, l, rfl⟩ : ∃ (r : Fin 1024) (l : Fin 192), i = ix2 r l := ⟨_, _, idx_mat i⟩
      rw [scAt0_1_next m c n h (by omega) acc, astep_apply]
      unfold addA
      rw [dif_pos h])
    (t.val % 8) (by omega) _ i

/-! ## A point's weights and values, as functions of the input array -/

/-- The weight of query row `r` against key row `j` at point `t` is the weight of Spec.lean of their tokens. -/
theorem wtile_eq (c : Dev nD) (t : Fin cfg0.N) (r : Fin 1024) (j : Fin 512) :
    wtile m c t (ix2 r j) = wgt (xin m c) (bOf t) (tOf t r) (sOf t j) := by
  unfold wtile
  rw [ptile_apply, blk_q2, blk_k2]
  simp only [blk_q, blk_k]
  rfl

/-! ## What the last point of a run leaves in the output block -/

/-- At the last key tile the output block is the quotient of the two scratch buffers as the point leaves them. -/
theorem out_last (c : Dev nD) (t : Fin cfg0.N) (h0 : ¬t.val % 8 = 0) (h1 : t.val % 8 = 7) :
    (outsAt0 m c t.val t.isLt).1 = k0_pay3 (outsAt0 m c t.val t.isLt).2.2 (outsAt0 m c t.val t.isLt).2.1 := by
  rw [outsAt0_C m c t h0 h1]
  dsimp only
  rw [out_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    sout_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2,
    sout_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2]

/-- So the output block of a run's last point, at query row `r` and lane `l`, is the attention of Spec.lean. -/
theorem out_att (c : Dev nD) (t : Fin cfg0.N) (h1 : t.val % 8 = 7) (r : Fin 1024) (l : Fin 192) :
    (outsAt0 m c t.val t.isLt).1 (ix3 (0 : Fin 1) r l) = att (xin m c) (bOf t) (tOf t r) l := by
  have h0 : ¬t.val % 8 = 0 := by omega
  have hN : t.val < 256 := lt_of_lt_of_eq t.isLt N256
  rw [out_last m c t h0 h1, pay3_apply, lsum_eq, asum_eq, h1, zero_add, zero_add]
  unfold att
  -- a point of the run: the same batch and query tile, key tile `a`
  have hpt : ∀ a : Fin 8, 8 * (t.val / 8) + a.val < cfg0.N := fun a => lt_of_lt_of_eq (show 8 * (t.val / 8) + a.val < 256 by have := a.isLt; omega) N256.symm
  have hb : ∀ a : Fin 8, bOf ⟨8 * (t.val / 8) + a.val, hpt a⟩ = bOf t := fun a => Fin.ext (by
    show (8 * (t.val / 8) + a.val) / 32 = t.val / 32; have := a.isLt; omega)
  have ht : ∀ a : Fin 8, tOf ⟨8 * (t.val / 8) + a.val, hpt a⟩ r = tOf t r := fun a => Fin.ext (by
    show (8 * (t.val / 8) + a.val) / 8 % 4 * 1024 + r.val = t.val / 8 % 4 * 1024 + r.val; have := a.isLt; omega)
  have hs : ∀ (a : Fin 8) (j : Fin 512), sOf ⟨8 * (t.val / 8) + a.val, hpt a⟩ j = ⟨a.val * 512 + j.val, by have := a.isLt; have := j.isLt; omega⟩ :=
    fun a j => Fin.ext (by
      show (8 * (t.val / 8) + a.val) % 8 * 512 + j.val = a.val * 512 + j.val; have := a.isLt; omega)
  congr 1
  · refine sum_tiles (fun k => wgt (xin m c) (bOf t) (tOf t r) k * vv (xin m c) (bOf t) k l) _ fun a => ?_
    unfold addA
    rw [dif_pos (hpt a)]
    refine Finset.sum_congr rfl fun j _ => ?_
    rw [wtile_eq, blk_v, hb, ht, hs]
  · refine sum_tiles (fun k => wgt (xin m c) (bOf t) (tOf t r) k) _ fun a => ?_
    unfold addL
    rw [dif_pos (hpt a)]
    refine Finset.sum_congr rfl fun j _ => ?_
    rw [wtile_eq, hb, ht, hs]

end Cert.KernelIdeal.Acc

end
-- ==== Proof.KFinal.lean ====
/-
  The attention kernel's result array after the run.  The output window is written back at the last point of
  each run of eight key tiles; what such a point writes back is its block of the attention of Spec.lean (KFold.lean),
  and the blocks of the 32 runs — 8 batches by 4 query tiles of 1024 tokens — tile the [8, 4096, 192] array.  So the
  array ends holding the attention of the program's input, and the input is left as it was.
-/
import proofs.«429850_j89799176225591_3_alg».proof.Proof.KFold

set_option maxRecDepth 16384

noncomputable section

namespace Cert.KernelIdeal.Acc

open Cert.KernelIdeal Cert.KernelIdeal.Gen Cert.KernelIdeal.Value Cert.DistAttn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The output window's block index at point `t`: (batch, query tile, 0). -/
theorem idx_out : ∀ t : Fin cfg0.N, win0_5.index t (0 : Fin 3) = t.val / 32 ∧ win0_5.index t (1 : Fin 3) = t.val / 8 % 4
    ∧ win0_5.index t (2 : Fin 3) = 0 :=
  (by decide +kernel : ∀ t : Fin grid0.N, win0_5.index t (0 : Fin 3) = t.val / 32 ∧ win0_5.index t (1 : Fin 3) = t.val / 8 % 4
    ∧ win0_5.index t (2 : Fin 3) = 0)

/-- Where entry (0, r, l) of point `t`'s output block sits in the result array: (batch, token of row r, l). -/
theorem emb_out (t : Fin cfg0.N) (r : Fin 1024) (l : Fin 192) :
    ((cfg0.win 5).blk t).view.emb (ix3 (0 : Fin 1) r l) = ix3 (bOf t) (tOf t r) l := by
  obtain ⟨e0, e1, e2⟩ := idx_out t
  funext a
  apply Fin.ext
  match a with
  | ⟨0, _⟩ => show win0_5.index t (0 : Fin 3) * 1 + 1 * 0 = t.val / 32; omega
  | ⟨1, _⟩ => show win0_5.index t (1 : Fin 3) * 1024 + 1 * r.val = t.val / 8 % 4 * 1024 + r.val; omega
  | ⟨2, _⟩ => show win0_5.index t (2 : Fin 3) * 192 + 1 * l.val = l.val; omega

/-- What a writing point writes back is its block of the attention of the input array. -/
theorem flushed_eq (c : Dev nD) (t : Fin cfg0.N) (hf : (cfg0.win 5).flush t = true) :
    (dats m 0 c).flushed 5 t = ((cfg0.win 5).blk t).view.read (Elt Ideal) (G (xin m c)) := by
  have h1 : t.val % 8 = 7 := (flush0_5 t).mp hf
  rw [flushed5]
  funext y
  obtain ⟨r, l, rfl⟩ : ∃ (r : Fin 1024) (l : Fin 192), y = ix3 (0 : Fin 1) r l :=
    ⟨⟨(y 1).val, (y 1).isLt⟩, ⟨(y 2).val, (y 2).isLt⟩, by
      funext a; apply Fin.ext
      match a with
      | ⟨0, _⟩ => have h : (y 0).val < 1 := (y 0).isLt; show (y 0).val = 0; omega
      | ⟨1, _⟩ => rfl
      | ⟨2, _⟩ => rfl⟩
  rw [View.read_apply, emb_out, G_ix3]
  exact out_att m c t h1 r l

/-- Every entry of the result array is under the block of a writing point: the last point of the run of its batch
    and query tile. -/
theorem covered (i : S8x4096x192.Idx) :
    ∃ t : Fin cfg0.N, (cfg0.win 5).flush t = true ∧ i ∈ ((cfg0.win 5).blk t).view.set := by
  have hi0 : (i 0).val < 8 := (i 0).isLt
  have hi1 : (i 1).val < 4096 := (i 1).isLt
  have hi2 : (i 2).val < 192 := (i 2).isLt
  let t : Fin cfg0.N := ⟨32 * (i 0).val + 8 * ((i 1).val / 1024) + 7, lt_of_lt_of_eq (by omega) N256.symm⟩
  have htv : t.val = 32 * (i 0).val + 8 * ((i 1).val / 1024) + 7 := rfl
  obtain ⟨e0, e1, e2⟩ := idx_out t
  refine ⟨t, (flush0_5 t).mpr (by omega), ?_⟩
  show i ∈ ((View.whole main_v22).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 192 ≤ (i 2).val ∧ (i 2).val < win0_5.index t (2 : Fin 3) * 192 + 192; omega

/-- The result array after the run is the attention of the input array. -/
theorem final (c : Dev nD) : (dats m 0 c).arrAt 5 cfg0.N = G (xin m c) :=
  (dats m 0 c).arrAt_eq_of_cover 5 (G (xin m c)) (fun t hf => flushed_eq m c t hf) covered

/-- The kernel's run: it terminates with the result array at the attention of its input, the input unchanged. -/
theorem run : θ_run defs (onTc (τ := τ) (main (F := Ideal))) ⟨m, fun _ => 0, ρ⟩ fun r => ∀ c : Dev nD,
      r.2.mem ((c : Thread nD τ).loc main_v22) = G (xin m c)
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Acc

end
-- ==== Proof.RefLaw.lean ====
/-
  The reference's arrangement of the same attention, and that on a finite input it is the function of
  Spec.lean.  Three laws of real arithmetic join the two: a factor moves out of a finite sum
  (`Σ_c (2 q_c) k_c = 2 Σ_c q_c k_c`); a square root guarded by `d > 0` is the square root of a
  number clamped at zero (`√0 = 0`); and a softmax is unchanged by a common shift of its logits, so that
  normalising the shifted weights before the contraction with the values equals dividing the unshifted
  contraction by the unshifted sum.  All three need finite entries: the extended reals are not a ring at
  the infinities.
-/
import Idealize.ShloMosaic.PureOps.Ideal
import Idealize.ShloMosaic.PureOps.Ideal.Laws
import Idealize.ShloMosaic.Lib.ValueIdx
import proofs.«429850_j89799176225591_3_alg».proof.Proof.Consts
import proofs.«429850_j89799176225591_3_alg».proof.Proof.Spec

noncomputable section

namespace Cert.DistAttn

open Idealize.ShloMosaic Idealize.ShloMosaic.ValueIdx

/-! ## Finite sums of reals inside the extended reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The logit, in both arrangements -/

/-- The pattern of `1.0`; its value is never used (the guarded square root discards it). -/
def one32 : EReal := Ideal.ofBits .f32 0x3F800000#32

/-- With real lanes `Q`, `K`: the kernel's logit `0 - √(max (|Q|² + |K|² - Σ (Q·2)·K) 0)` and the reference's
    `-(if d > 0 then √(if d > 0 then d else 1) else 0)` with `d = max (|Q|² + |K|² - 2·ΣQ·K) 0` are one real. -/
theorem logit_real {ι : Type} [Fintype ι] (Q K : ι → ℝ) :
    ∃ l : ℝ,
      (0 - Ideal.sqrt (max (((0 + ∑ c, (Q c : EReal) * (Q c : EReal)) + (0 + ∑ c, (K c : EReal) * (K c : EReal)))
          - ∑ c, ((Q c : EReal) * two) * (K c : EReal)) 0) = (l : EReal))
      ∧ (-(Scalar.select (Ideal.cmp .ogt (max (((0 + ∑ c, (Q c : EReal) * (Q c : EReal)) + (0 + ∑ c, (K c : EReal) * (K c : EReal)))
              - two * ∑ c, (Q c : EReal) * (K c : EReal)) 0) 0)
            (Ideal.sqrt (Scalar.select (Ideal.cmp .ogt (max (((0 + ∑ c, (Q c : EReal) * (Q c : EReal)) + (0 + ∑ c, (K c : EReal) * (K c : EReal)))
              - two * ∑ c, (Q c : EReal) * (K c : EReal)) 0) 0)
              (max (((0 + ∑ c, (Q c : EReal) * (Q c : EReal)) + (0 + ∑ c, (K c : EReal) * (K c : EReal)))
              - two * ∑ c, (Q c : EReal) * (K c : EReal)) 0) one32))
            0) = (l : EReal)) := by
  have htwo : two = ((2 : ℝ) : EReal) := Cert.Consts.ofBits_two
  -- the clamped squared distance, as a real
  let d : ℝ := max ((∑ c, Q c * Q c) + (∑ c, K c * K c) - 2 * ∑ c, Q c * K c) 0
  have hd0 : 0 ≤ d := le_max_right _ _
  have hqq : (0 + ∑ c, (Q c : EReal) * (Q c : EReal)) = ((∑ c, Q c * Q c : ℝ) : EReal) := by
    rw [zero_add, coe_sum]; exact Finset.sum_congr rfl fun c _ => (EReal.coe_mul _ _).symm
  have hkk : (0 + ∑ c, (K c : EReal) * (K c : EReal)) = ((∑ c, K c * K c : ℝ) : EReal) := by
    rw [zero_add, coe_sum]; exact Finset.sum_congr rfl fun c _ => (EReal.coe_mul _ _).symm
  have hker : (∑ c, ((Q c : EReal) * two) * (K c : EReal)) = ((2 * ∑ c, Q c * K c : ℝ) : EReal) := by
    rw [Finset.mul_sum, coe_sum]
    refine Finset.sum_congr rfl fun c _ => ?_
    rw [htwo, ← EReal.coe_mul, ← EReal.coe_mul]; congr 1; ring
  have href : (two * ∑ c, (Q c : EReal) * (K c : EReal)) = ((2 * ∑ c, Q c * K c : ℝ) : EReal) := by
    rw [htwo, EReal.coe_mul, coe_sum]
    congr 1
  have hD : ∀ e : EReal, e = ((2 * ∑ c, Q c * K c : ℝ) : EReal) →
      max (((0 + ∑ c, (Q c : EReal) * (Q c : EReal)) + (0 + ∑ c, (K c : EReal) * (K c : EReal))) - e) 0 = (d : EReal) := by
    intro e he
    rw [he, hqq, hkk, ← EReal.coe_add, ← EReal.coe_sub, ← EReal.coe_zero]
    exact (EReal.coe_strictMono.monotone.map_max).symm
  refine ⟨-Real.sqrt d, ?_, ?_⟩
  · rw [hD _ hker, Ideal.sqrt_coe, if_neg (not_lt.mpr hd0), ← EReal.coe_zero, ← EReal.coe_sub, zero_sub]
  · rw [hD _ href]
    by_cases hpos : 0 < d
    · have hc : Ideal.cmp .ogt (d : EReal) 0 = 1#1 := by
        simp [Ideal.cmp, hpos]
      rw [hc, select_one, select_one, Ideal.sqrt_coe, if_neg (not_lt.mpr hd0), EReal.coe_neg]
    · have hd : d = 0 := le_antisymm (not_lt.mp hpos) hd0
      have hc : Ideal.cmp .ogt (d : EReal) 0 = 0#1 := by
        simp [Ideal.cmp, hd]
      rw [hc, select_zero, hd, Real.sqrt_zero, neg_zero, neg_zero, EReal.coe_zero]

/-! ## The maximum of finitely many reals is a real -/

/-- The maximum the reference subtracts — started from the bottom element, over a non-empty row of real logits, and then
    once more against the bottom element — is a real number. -/
theorem rowmax_real {σ : Type} [Fintype σ] [Nonempty σ] (l : σ → ℝ) :
    ∃ μ : ℝ, max (⊥ : EReal) ((Finset.univ : Finset σ).fold max (⊥ : EReal) (fun s => (l s : EReal))) = (μ : EReal) := by
  rw [max_eq_right bot_le]
  have hne_top : (Finset.univ : Finset σ).fold max (⊥ : EReal) (fun s => (l s : EReal)) ≠ ⊤ := by
    apply ne_of_lt
    rw [Finset.fold_max_lt]
    exact ⟨bot_lt_top, fun s _ => EReal.coe_lt_top _⟩
  have hne_bot : (Finset.univ : Finset σ).fold max (⊥ : EReal) (fun s => (l s : EReal)) ≠ ⊥ := by
    obtain ⟨s0⟩ := ‹Nonempty σ›
    apply ne_of_gt
    have h : (l s0 : EReal) ≤ (Finset.univ : Finset σ).fold max (⊥ : EReal) (fun s => (l s : EReal)) :=
      (Finset.le_fold_max _).mpr (Or.inr ⟨s0, Finset.mem_univ _, le_rfl⟩)
    exact lt_of_lt_of_le (EReal.bot_lt_coe _) h
  exact ⟨_, (EReal.coe_toReal hne_top hne_bot).symm⟩

/-! ## A softmax does not see a common shift -/

/-- Real logits `l`, real values `v`, any real shift `μ`: the shifted weights normalised by their sum and then
    contracted with the values give the unshifted contraction divided by the unshifted sum.  (`e^(l-μ) = e^l e^(-μ)`,
    and the positive factor `e^(-μ)` cancels between numerator and denominator.) -/
theorem softmax_shift {σ : Type} [Fintype σ] [Nonempty σ] (l v : σ → ℝ) (μ : ℝ) :
    ∑ s, Ideal.div (Ideal.exp ((l s : EReal) - (μ : EReal))) (0 + ∑ s', Ideal.exp ((l s' : EReal) - (μ : EReal))) * (v s : EReal)
      = Ideal.div (∑ s, Ideal.exp (l s : EReal) * (v s : EReal)) (∑ s, Ideal.exp (l s : EReal)) := by
  have hE : ∀ s, Ideal.exp ((l s : EReal) - (μ : EReal)) = ((Real.exp (l s - μ) : ℝ) : EReal) := fun s => by
    rw [← EReal.coe_sub]; rfl
  have hE' : ∀ s, Ideal.exp (l s : EReal) = ((Real.exp (l s) : ℝ) : EReal) := fun s => rfl
  simp only [hE, hE']
  have hZ'pos : 0 < ∑ s, Real.exp (l s - μ) := Finset.sum_pos (fun s _ => Real.exp_pos _) Finset.univ_nonempty
  have hZpos : 0 < ∑ s, Real.exp (l s) := Finset.sum_pos (fun s _ => Real.exp_pos _) Finset.univ_nonempty
  have h1 : (0 + ∑ s', ((Real.exp (l s' - μ) : ℝ) : EReal)) = ((∑ s, Real.exp (l s - μ) : ℝ) : EReal) := by
    rw [zero_add, ← coe_sum]
  have h2 : (∑ s, ((Real.exp (l s) : ℝ) : EReal)) = ((∑ s, Real.exp (l s) : ℝ) : EReal) := by rw [← coe_sum]
  rw [h1, h2, Ideal.div_coe hZpos.ne']
  have h3 : ∀ s, Ideal.div ((Real.exp (l s - μ) : ℝ) : EReal) ((∑ s, Real.exp (l s - μ) : ℝ) : EReal) * (v s : EReal)
      = ((Real.exp (l s - μ) * (1 / ∑ s, Real.exp (l s - μ)) * v s : ℝ) : EReal) := fun s => by
    rw [Ideal.div_coe hZ'pos.ne', ← EReal.coe_mul, ← EReal.coe_mul]
  simp only [h3]
  rw [← coe_sum]
  have h4 : (∑ s, ((Real.exp (l s) : ℝ) : EReal) * (v s : EReal)) = ((∑ s, Real.exp (l s) * v s : ℝ) : EReal) := by
    rw [coe_sum]; exact Finset.sum_congr rfl fun s _ => (EReal.coe_mul _ _).symm
  rw [h4, ← EReal.coe_mul]
  congr 1
  have hZZ : (∑ s, Real.exp (l s - μ)) = Real.exp (-μ) * ∑ s, Real.exp (l s) := by
    rw [Finset.mul_sum]; exact Finset.sum_congr rfl fun s _ => by rw [← Real.exp_add]; congr 1; ring
  rw [Finset.sum_mul]
  refine Finset.sum_congr rfl fun s _ => ?_
  have hs : Real.exp (l s - μ) = Real.exp (-μ) * Real.exp (l s) := by rw [← Real.exp_add]; congr 1; ring
  rw [hs, hZZ]
  have hμ : Real.exp (-μ) ≠ 0 := (Real.exp_pos _).ne'
  have hZ : (∑ s, Real.exp (l s)) ≠ 0 := hZpos.ne'
  field_simp

/-! ## The reference's arrangement -/

section Reference

variable (x : SX.Idx → EReal)

/-- The clamped squared distance as the reference spells it: the factor two outside the contraction. -/
def rdist2 (b : Fin 8) (t s : Fin 4096) : EReal :=
  max ((q2 x b t + k2 x b s) - two * ∑ c : Fin 192, qv x b t c * kv x b s c) 0

/-- The reference's logit: minus the square root, taken only where the squared distance is positive. -/
def rlogit (b : Fin 8) (t s : Fin 4096) : EReal :=
  -(Scalar.select (Ideal.cmp .ogt (rdist2 x b t s) 0)
      (Ideal.sqrt (Scalar.select (Ideal.cmp .ogt (rdist2 x b t s) 0) (rdist2 x b t s) one32)) 0)

/-- The row maximum the reference subtracts. -/
def rmax (b : Fin 8) (t : Fin 4096) : EReal :=
  max (⊥ : EReal) ((Finset.univ : Finset (Fin 4096)).fold max (⊥ : EReal) (fun s => rlogit x b t s))

/-- The shifted weight. -/
def rexp (b : Fin 8) (t s : Fin 4096) : EReal := Ideal.exp (rlogit x b t s - rmax x b t)

/-- The reference's result: the normalised shifted weights contracted with the value rows. -/
def refAtt (b : Fin 8) (t : Fin 4096) (c : Fin 192) : EReal :=
  ∑ s : Fin 4096, Ideal.div (rexp x b t s) (0 + ∑ s' : Fin 4096, rexp x b t s') * vv x b s c

/-- On a finite input the reference's arrangement is the function of Spec.lean. -/
theorem refAtt_eq_att (hx : ∀ i, ∃ r : ℝ, x i = (r : EReal)) (b : Fin 8) (t : Fin 4096) (c : Fin 192) :
    refAtt x b t c = att x b t c := by
  obtain ⟨σ, hσ⟩ := Cert.Consts.ofBits_scale
  choose r hr using hx
  -- the scaled queries, keys and the values are reals
  have hq : ∀ l, qv x b t l = ((r (ix3 b t (⟨l.val, by have := l.isLt; omega⟩ : Fin 576)) * σ : ℝ) : EReal) := fun l => by
    unfold qv scl; rw [hr, hσ, EReal.coe_mul]
  have hk : ∀ s l, kv x b s l = ((r (ix3 b s (⟨192 + l.val, by have := l.isLt; omega⟩ : Fin 576)) * σ : ℝ) : EReal) := fun s l => by
    unfold kv scl; rw [hr, hσ, EReal.coe_mul]
  have hv : ∀ s, vv x b s c = ((r (ix3 b s (⟨384 + c.val, by have := c.isLt; omega⟩ : Fin 576)) : ℝ) : EReal) := fun s => by
    unfold vv; rw [hr]
  -- each logit, in both arrangements, is one real
  have hl : ∀ s, ∃ l : ℝ, logit x b t s = (l : EReal) ∧ rlogit x b t s = (l : EReal) := fun s => by
    obtain ⟨l, h1, h2⟩ := logit_real
      (fun l : Fin 192 => r (ix3 b t (⟨l.val, by have := l.isLt; omega⟩ : Fin 576)) * σ)
      (fun l : Fin 192 => r (ix3 b s (⟨192 + l.val, by have := l.isLt; omega⟩ : Fin 576)) * σ)
    refine ⟨l, ?_, ?_⟩
    · unfold logit q2 k2; simp only [hq, hk]; exact h1
    · unfold rlogit rdist2 q2 k2; simp only [hq, hk]; exact h2
  choose l hl1 hl2 using hl
  obtain ⟨μ, hμ⟩ := rowmax_real l
  have hmax : rmax x b t = (μ : EReal) := by unfold rmax; simp only [hl2]; exact hμ
  unfold refAtt att rexp wgt
  simp only [hl1, hl2, hmax, hv]
  exact softmax_shift l _ μ

end Reference

end Cert.DistAttn

end
-- ==== Proof.RefChain.lean ====
/-
  The reference program's result, read one operation at a time at an index, is the reference's arrangement of the
  attention (RefLaw.lean's `refAtt`) of the program's input array.
-/
import proofs.«429850_j89799176225591_3_alg».proof.Proof.Gen.ReferenceIdeal.Read
import proofs.«429850_j89799176225591_3_alg».proof.Proof.RefLaw
import Idealize.ShloMosaic.PureOps.Reduce

set_option maxRecDepth 16384

noncomputable section

namespace Cert.ReferenceIdeal.RefValue

open Cert.ReferenceIdeal Cert.ReferenceIdeal.Read Cert.DistAttn
open Idealize.ShloMosaic Idealize.ShloMosaic.ValueIdx

/-! ## The three slices of the input row, and the scaled query, key and value lanes -/

/-- The first slice reads lane `l` of the input row. -/
private theorem idx_v0 (b : Fin 8) (t : Fin 4096) (l : Fin 192) :
    idx_main_v0 (ix3 b t l) = ix3 b t (⟨l.val, by have := l.isLt; omega⟩ : Fin 576) :=
  funext fun a => Fin.ext (by match a with | ⟨0, _⟩ => rfl | ⟨1, _⟩ => rfl | ⟨2, _⟩ => rfl)

/-- The second slice reads lane `192 + l`. -/
private theorem idx_v1 (b : Fin 8) (t : Fin 4096) (l : Fin 192) :
    idx_main_v1 (ix3 b t l) = ix3 b t (⟨192 + l.val, by have := l.isLt; omega⟩ : Fin 576) :=
  funext fun a => Fin.ext (by match a with | ⟨0, _⟩ => rfl | ⟨1, _⟩ => rfl | ⟨2, _⟩ => rfl)

/-- The third slice reads lane `384 + l`. -/
private theorem idx_v2 (b : Fin 8) (t : Fin 4096) (l : Fin 192) :
    idx_main_v2 (ix3 b t l) = ix3 b t (⟨384 + l.val, by have := l.isLt; omega⟩ : Fin 576) :=
  funext fun a => Fin.ext (by match a with | ⟨0, _⟩ => rfl | ⟨1, _⟩ => rfl | ⟨2, _⟩ => rfl)

/-- The first slice times the broadcast scale is the scaled query. -/
private theorem v4_eq (x : (⟨S8x4096x576, .f32⟩ : BufTy).Contents (Elt Ideal)) (b : Fin 8) (t : Fin 4096) (l : Fin 192) :
    val_main_v4 (F := Ideal) x (ix3 b t l) = qv x b t l := by
  rw [val_main_v4_apply, val_main_v0_apply, idx_v0, val_main_v3_apply, val_main_cst_apply]
  rfl

/-- The second slice times the broadcast scale is the scaled key. -/
private theorem v6_eq (x : (⟨S8x4096x576, .f32⟩ : BufTy).Contents (Elt Ideal)) (b : Fin 8) (s : Fin 4096) (l : Fin 192) :
    val_main_v6 (F := Ideal) x (ix3 b s l) = kv x b s l := by
  rw [val_main_v6_apply, val_main_v1_apply, idx_v1, val_main_v5_apply, val_main_cst_0_apply]
  rfl

/-- The third slice is the value row. -/
private theorem v2_eq (x : (⟨S8x4096x576, .f32⟩ : BufTy).Contents (Elt Ideal)) (b : Fin 8) (s : Fin 4096) (l : Fin 192) :
    val_main_v2 (F := Ideal) x (ix3 b s l) = vv x b s l := by
  rw [val_main_v2_apply, idx_v2]
  rfl

/-! ## The squared norms -/

/-- The sum of the squared query lanes, started from zero. -/
private theorem v8_eq (x : (⟨S8x4096x576, .f32⟩ : BufTy).Contents (Elt Ideal)) (b : Fin 8) (t : Fin 4096) :
    val_main_v8 (F := Ideal) x (ix2 b t) = q2 x b t := by
  rw [val_main_v8_apply, val_main_cst_1_apply]
  unfold q2
  refine congrArg₂ (· + ·) Ideal.ofBits_zero_f32 (Finset.sum_congr rfl fun k _ => ?_)
  have e : idx_main_v8 (ix2 b t) k = ix3 b t k :=
    funext fun a => Fin.ext (by match a with | ⟨0, _⟩ => rfl | ⟨1, _⟩ => rfl | ⟨2, _⟩ => rfl)
  rw [e, val_main_v7_apply, v4_eq]
  rfl

/-- The sum of the squared key lanes, started from zero. -/
private theorem v10_eq (x : (⟨S8x4096x576, .f32⟩ : BufTy).Contents (Elt Ideal)) (b : Fin 8) (s : Fin 4096) :
    val_main_v10 (F := Ideal) x (ix2 b s) = k2 x b s := by
  rw [val_main_v10_apply, val_main_cst_2_apply]
  unfold k2
  refine congrArg₂ (· + ·) Ideal.ofBits_zero_f32 (Finset.sum_congr rfl fun k _ => ?_)
  have e : idx_main_v10 (ix2 b s) k = ix3 b s k :=
    funext fun a => Fin.ext (by match a with | ⟨0, _⟩ => rfl | ⟨1, _⟩ => rfl | ⟨2, _⟩ => rfl)
  rw [e, val_main_v9_apply, v6_eq]
  rfl

/-! ## The clamped squared distance -/

/-- The query's squared norm broadcast along the keys. -/
private theorem v13_eq (x : (⟨S8x4096x576, .f32⟩ : BufTy).Contents (Elt Ideal)) (b : Fin 8) (t s : Fin 4096) :
    val_main_v13 (F := Ideal) x (ix3 b t s) = q2 x b t := by
  rw [val_main_v13_apply, val_main_v11_apply]
  have e : idx_main_v11 (idx_main_v13 (ix3 b t s)) = ix2 b t :=
    funext fun a => Fin.ext (by match a with | ⟨0, _⟩ => rfl | ⟨1, _⟩ => rfl)
  rw [e, v8_eq]

/-- The key's squared norm broadcast along the queries. -/
private theorem v14_eq (x : (⟨S8x4096x576, .f32⟩ : BufTy).Contents (Elt Ideal)) (b : Fin 8) (t s : Fin 4096) :
    val_main_v14 (F := Ideal) x (ix3 b t s) = k2 x b s := by
  rw [val_main_v14_apply, val_main_v12_apply]
  have e : idx_main_v12 (idx_main_v14 (ix3 b t s)) = ix2 b s :=
    funext fun a => Fin.ext (by match a with | ⟨0, _⟩ => rfl | ⟨1, _⟩ => rfl)
  rw [e, v10_eq]

/-- The contraction of the scaled query with the scaled key over the lanes. -/
private theorem v16_eq (x : (⟨S8x4096x576, .f32⟩ : BufTy).Contents (Elt Ideal)) (b : Fin 8) (t s : Fin 4096) :
    val_main_v16 (F := Ideal) x (ix3 b t s) = ∑ c : Fin 192, qv x b t c * kv x b s c := by
  rw [val_main_v16_apply]
  refine Finset.sum_congr rfl fun k _ => ?_
  have el : lidx_main_v16 (ix3 b t s) k = ix3 b t k :=
    funext fun a => Fin.ext (by match a with | ⟨0, _⟩ => rfl | ⟨1, _⟩ => rfl | ⟨2, _⟩ => rfl)
  have er : ridx_main_v16 (ix3 b t s) k = ix3 b s k :=
    funext fun a => Fin.ext (by match a with | ⟨0, _⟩ => rfl | ⟨1, _⟩ => rfl | ⟨2, _⟩ => rfl)
  rw [el, er, v4_eq, v6_eq]

/-- The sum of the squared norms minus twice the contraction, clamped at zero. -/
private theorem v21_eq (x : (⟨S8x4096x576, .f32⟩ : BufTy).Contents (Elt Ideal)) (b : Fin 8) (t s : Fin 4096) :
    val_main_v21 (F := Ideal) x (ix3 b t s) = rdist2 x b t s := by
  rw [val_main_v21_apply, val_main_v19_apply, val_main_v15_apply, val_main_v18_apply, v13_eq, v14_eq, v16_eq,
    val_main_v17_apply, val_main_cst_3_apply, val_main_v20_apply, val_main_cst_4_apply]
  unfold rdist2
  exact congrArg (max _) Ideal.ofBits_zero_f32

/-! ## The logit -/

/-- The zero pattern is the extended real zero. -/
private theorem ofBits_zero' : (FloatOps.ofBits (F := Ideal) .f32 0x00000000#32 : Ideal .f32) = (0 : EReal) :=
  Ideal.ofBits_zero_f32

/-- Minus the square root taken only where the clamped squared distance is positive. -/
private theorem v29_eq (x : (⟨S8x4096x576, .f32⟩ : BufTy).Contents (Elt Ideal)) (b : Fin 8) (t s : Fin 4096) :
    val_main_v29 (F := Ideal) x (ix3 b t s) = rlogit x b t s := by
  rw [val_main_v29_apply, val_main_v28_apply, val_main_v23_apply, val_main_v27_apply, val_main_v26_apply,
    val_main_v25_apply, v21_eq, val_main_v22_apply, val_main_cst_5_apply, val_main_v24_apply, val_main_cst_6_apply,
    val_main_call0_v1_apply, val_main_call0_v0_apply, val_main_cst_7_apply,
    val_main_call1_v1_apply, val_main_call1_v0_apply, val_main_cst_8_apply, ofBits_zero']
  rfl

/-! ## The row maximum -/

/-- The reduced index (b, t) with the key coordinate `k` put back is (b, t, k). -/
private theorem lift_v30 (h : S8x4096x4096.Reduces [2] S8x4096) (b : Fin 8) (t : Fin 4096)
    (k : Fin (S8x4096x4096.size 2)) : h.lift (ix2 b t) k = ix3 b t (⟨k.val, k.isLt⟩ : Fin 4096) := by
  funext c; apply Fin.ext
  fin_cases c <;> rfl

/-- The maximum of bottom and the fold of the maximum over the keys, started from bottom. -/
private theorem v32_eq (x : (⟨S8x4096x576, .f32⟩ : BufTy).Contents (Elt Ideal)) (b : Fin 8) (t : Fin 4096) :
    val_main_v32 (F := Ideal) x (ix2 b t) = rmax x b t := by
  have h : S8x4096x4096.Reduces [2] S8x4096 := by decide
  rw [val_main_v32_apply, val_main_v31_apply, val_main_cst_10_apply]
  unfold val_main_v30
  have e := Host.reduce_eq_fold_single (α := Ideal .f32) (s := S8x4096x4096) (t := S8x4096) (u := S_) (a := 2)
      FloatOps.maximumf (val_main_v29 (F := Ideal) x) (val_main_cst_9 (F := Ideal))
      Gen.reducesTo_S8x4096x4096_S8x4096_d2 h Gen.h_S_ (ix2 b t)
  have hf : (val_main_v29 (F := Ideal) x ∘ h.lift (ix2 b t)) = fun s : Fin 4096 => rlogit x b t s :=
    funext fun k => (congrArg (val_main_v29 (F := Ideal) x) (lift_v30 h b t k)).trans (v29_eq x b t _)
  have hbot : (FloatOps.ofBits (F := Ideal) .f32 0xFF800000#32 : Ideal .f32) = (⊥ : EReal) :=
    Cert.Consts.ofBits_neg_inf
  rw [e, hf, val_main_cst_9_apply, hbot]
  rfl

/-! ## The shifted weight, its row sum, and the last contraction -/

/-- The exponential of the logit minus the row maximum broadcast along the keys. -/
private theorem v36_eq (x : (⟨S8x4096x576, .f32⟩ : BufTy).Contents (Elt Ideal)) (b : Fin 8) (t s : Fin 4096) :
    val_main_v36 (F := Ideal) x (ix3 b t s) = rexp x b t s := by
  rw [val_main_v36_apply, val_main_v35_apply, v29_eq, val_main_v34_apply, val_main_v33_apply]
  have e : idx_main_v33 (idx_main_v34 (ix3 b t s)) = ix2 b t :=
    funext fun a => Fin.ext (by match a with | ⟨0, _⟩ => rfl | ⟨1, _⟩ => rfl)
  rw [e, v32_eq]
  rfl

/-- The row sum of the shifted weights, started from zero, broadcast along the keys. -/
private theorem v39_eq (x : (⟨S8x4096x576, .f32⟩ : BufTy).Contents (Elt Ideal)) (b : Fin 8) (t s : Fin 4096) :
    val_main_v39 (F := Ideal) x (ix3 b t s) = 0 + ∑ s' : Fin 4096, rexp x b t s' := by
  rw [val_main_v39_apply, val_main_v38_apply]
  have e : idx_main_v38 (idx_main_v39 (ix3 b t s)) = ix2 b t :=
    funext fun a => Fin.ext (by match a with | ⟨0, _⟩ => rfl | ⟨1, _⟩ => rfl)
  rw [e, val_main_v37_apply, val_main_cst_11_apply]
  refine congrArg₂ (· + ·) Ideal.ofBits_zero_f32 (Finset.sum_congr rfl fun k _ => ?_)
  have e' : idx_main_v37 (ix2 b t) k = ix3 b t k :=
    funext fun a => Fin.ext (by match a with | ⟨0, _⟩ => rfl | ⟨1, _⟩ => rfl | ⟨2, _⟩ => rfl)
  rw [e', v36_eq]

/-- The normalised shifted weights contracted with the value rows over the keys. -/
theorem ref_chain (x : (⟨S8x4096x576, .f32⟩ : BufTy).Contents (Elt Ideal)) (b : Fin 8) (t : Fin 4096) (c : Fin 192) :
    val_main_v41 (F := Ideal) x (ix3 b t c) = refAtt x b t c := by
  rw [val_main_v41_apply]
  unfold refAtt
  refine Finset.sum_congr rfl fun k _ => ?_
  have el : lidx_main_v41 (ix3 b t c) k = ix3 b t k :=
    funext fun a => Fin.ext (by match a with | ⟨0, _⟩ => rfl | ⟨1, _⟩ => rfl | ⟨2, _⟩ => rfl)
  have er : ridx_main_v41 (ix3 b t c) k = ix3 b k c :=
    funext fun a => Fin.ext (by match a with | ⟨0, _⟩ => rfl | ⟨1, _⟩ => rfl | ⟨2, _⟩ => rfl)
  rw [el, er, val_main_v40_apply, v36_eq, v39_eq, v2_eq]
  rfl

end Cert.ReferenceIdeal.RefValue

end
-- ==== Proof.Finite.lean ====
/-
  From the precondition to finiteness: if the printed predicate "every |x| is below +inf" evaluates to all ones
  on an array of extended reals, every entry of the array is a real number.
-/
import proofs.«429850_j89799176225591_3_alg».proof.Pre_finite_inputs
import proofs.«429850_j89799176225591_3_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.DistAttn

open Idealize.ShloMosaic

private instance : Subsingleton Cert.Pre_finite_inputs.S_.Idx := ⟨fun a b => funext fun d => d.elim0⟩

/-- A one-bit word made from a Boolean is one exactly when the Boolean is true. -/
private theorem ofBool_one (b : Bool) : BitVec.ofBool b = 1#1 ↔ b = true := by cases b <;> decide

/-- The bit pattern `0x7F800000` denotes `+∞`. -/
private theorem inf_bits : Ideal.ofBits .f32 0x7F800000#32 = (⊤ : EReal) := by
  simp [Ideal.ofBits, Ideal.ieee]

theorem real_of_pre [hP : Cert.Pre_finite_inputs.Facts] (x : FVec Ideal Cert.Pre_finite_inputs.S8x4096x576 .f32)
    (h : Cert.Pre_finite_inputs.fn (F := Ideal) x = fun _ => 1#1) :
    ∀ i, ∃ r : ℝ, x i = (r : EReal) := by
  intro i
  -- the conjunction over all entries is one, so the comparison at entry `i` is one
  have h0 := congrFun h ValueIdx.ix0
  dsimp only [Cert.Pre_finite_inputs.fn] at h0
  have hi := Host.reduce_andi_all _ _ _ _ _ h0 i
  -- at the extended reals that comparison is `max (x i) (-(x i)) < +∞`
  have hc : cmpf CmpFPredicate.olt (Host.absf x)
      (broadcastInDim Cert.Pre_finite_inputs.S8x4096x576 ![] Cert.Pre_finite_inputs.Facts.bcast_S_S8x4096x576
        (constant Cert.Pre_finite_inputs.S_ FTy.f32 2139095040#32)) i
      = Ideal.cmp .olt (max (x i) (-(x i))) (Ideal.ofBits .f32 0x7F800000#32) := rfl
  rw [hc, inf_bits] at hi
  simp only [Ideal.cmp, ofBool_one, decide_eq_true_eq] at hi
  -- `⊥` and `⊤` both have absolute value `⊤`, which is not below `⊤`; what is left is a real
  generalize x i = a at hi ⊢
  induction a using EReal.rec with
  | bot => simp at hi
  | coe r => exact ⟨r, rfl⟩
  | top => simp at hi

end Cert.DistAttn

end
-- ==== Proof.lean ====
/-
  L2-distance attention: the tiled kernel against the plain reference, over the extended reals.

  Both programs split the input [8, 4096, 576] into queries, keys and values of 192 lanes, scale queries and keys by
  the f32 pattern of 192^(-1/2), and weight the value rows of a batch by exp(-distance(query, key)), normalised over
  the 4096 keys.  The kernel walks 8 key tiles of 512 keys per query tile of 1024 queries, keeping two running sums
  (Σ w and Σ w·v) and dividing once at the last tile; it folds the factor two of |q|² + |k|² - 2 q·k into the query
  and subtracts no row maximum, since every logit is at most zero.  The reference forms the whole [4096, 4096] table
  of logits, takes a guarded square root, subtracts the row maximum, normalises, and contracts with the values.

  The kernel's result array is the function `G` of Spec.lean of its input, whatever the input (KFinal.lean: the
  running sums in closed form, eight tiles of 512 keys being the 4096 keys).  The reference's result is the same
  function where the input is finite (RefChain.lean reads the program; RefLaw.lean has the three laws of real
  arithmetic that join the two arrangements), and the precondition makes the input finite (Finite.lean).  The frames
  of the two kernel programs are the generated ones; the reference's frame is its generated run with the result
  dropped; no idealisation rewrite was applied, so the kernel's idealisation is its own text.
-/
import proofs.«429850_j89799176225591_3_alg».proof.Defs
import proofs.«429850_j89799176225591_3_alg».proof.Proof.Gen.Kernel
import proofs.«429850_j89799176225591_3_alg».proof.Proof.Gen.Kernel.Skeleton
import proofs.«429850_j89799176225591_3_alg».proof.Proof.Gen.Kernel.Launch
import proofs.«429850_j89799176225591_3_alg».proof.Proof.Gen.Kernel.Points
import proofs.«429850_j89799176225591_3_alg».proof.Proof.Gen.Kernel.Frame
import proofs.«429850_j89799176225591_3_alg».proof.Proof.Gen.KernelIdeal
import proofs.«429850_j89799176225591_3_alg».proof.Proof.Gen.KernelIdeal.Skeleton
import proofs.«429850_j89799176225591_3_alg».proof.Proof.Gen.KernelIdeal.Launch
import proofs.«429850_j89799176225591_3_alg».proof.Proof.Gen.KernelIdeal.Points
import proofs.«429850_j89799176225591_3_alg».proof.Proof.Gen.KernelIdeal.Frame
import proofs.«429850_j89799176225591_3_alg».proof.Proof.Gen.ReferenceIdeal
import proofs.«429850_j89799176225591_3_alg».proof.Proof.Gen.Pre_finite_inputs
import proofs.«429850_j89799176225591_3_alg».proof.Proof.Gen.KernelIdeal.Value
import proofs.«429850_j89799176225591_3_alg».proof.Proof.Gen.ReferenceIdeal.Run
import proofs.«429850_j89799176225591_3_alg».proof.Proof.Gen.ReferenceIdeal.Read
import proofs.«429850_j89799176225591_3_alg».proof.Proof.KFinal
import proofs.«429850_j89799176225591_3_alg».proof.Proof.RefChain
import proofs.«429850_j89799176225591_3_alg».proof.Proof.RefLaw
import proofs.«429850_j89799176225591_3_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- On a finite input the reference's result array is the attention `G` of the input. -/
theorem reference_is_G (x : Cert.DistAttn.SX.Idx → EReal) (hx : ∀ i, ∃ r : ℝ, x i = (r : EReal)) :
    Cert.ReferenceIdeal.Read.val_main_v41 (F := Ideal) x = Cert.DistAttn.G x := by
  funext i
  obtain ⟨b, t, l, rfl⟩ : ∃ (b : Fin 8) (t : Fin 4096) (l : Fin 192), i = ix3 b t l := ⟨_, _, _, eq_ix3 i⟩
  rw [Cert.ReferenceIdeal.RefValue.ref_chain, Cert.DistAttn.refAtt_eq_att x hx, Cert.DistAttn.G_ix3]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  by
    intro m ρ m' ρ' hpre hagree
    refine ⟨fun c => Cert.DistAttn.G (Cert.KernelIdeal.Acc.xin m c), Cert.KernelIdeal.Acc.run m ρ, ?_⟩
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v41_eq, hagree c]
    exact reference_is_G _ (Cert.DistAttn.real_of_pre (hP := Cert.Pre_finite_inputs.Gen.facts) _ (hpre c))⟩

end Cert.Proof

end
